-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x9x64 : Shape := ⟨3, ![20000, 9, 64]⟩
abbrev S120000x9x9 : Shape := ⟨3, ![120000, 9, 9]⟩
abbrev S120000x256 : Shape := ⟨2, ![120000, 256]⟩
abbrev S2x120000 : Shape := ⟨2, ![2, 120000]⟩
abbrev S_ : Shape := ⟨0, ![]⟩

class Facts : Prop where
  bcast_S_S20000x9x64 : S_.BroadcastsInDim S20000x9x64 (![] : Fin 0 → Fin S20000x9x64.rank)
  reducesTo_S20000x9x64_S_d0_1_2 : S20000x9x64.ReducesTo [0, 1, 2] S_
  h_S_ : 0 < S_.numel
  bcast_S_S120000x9x9 : S_.BroadcastsInDim S120000x9x9 (![] : Fin 0 → Fin S120000x9x9.rank)
  reducesTo_S120000x9x9_S_d0_1_2 : S120000x9x9.ReducesTo [0, 1, 2] S_
  bcast_S_S120000x256 : S_.BroadcastsInDim S120000x256 (![] : Fin 0 → Fin S120000x256.rank)
  reducesTo_S120000x256_S_d0_1 : S120000x256.ReducesTo [0, 1] S_
  bcast_S_S2x120000 : S_.BroadcastsInDim S2x120000 (![] : Fin 0 → Fin S2x120000.rank)
  reducesTo_S2x120000_S_d0_1 : S2x120000.ReducesTo [0, 1] S_

variable [Facts]

def fn_part1 {F : FTy → Type} [FloatOps F] (main_arg4 : IVec S2x120000 32) (main_v13 : IVec S_ 1) (main_v16 : IVec S120000x256 1) : IVec S_ 1 :=
  let main_c_5 : IVec S_ 1 := constantI S_ 1 1#1
  let main_v17 : IVec S_ 1 := (fun x v => Host.reduce IntOp.andi x v reducesTo_S120000x256_S_d0_1 h_S_) main_v16 main_c_5
  let main_v18 : IVec S_ 1 := andi main_v13 main_v17
  let main_c_6 : IVec S_ 32 := constantI S_ 32 0#32
  let main_v19 : IVec S2x120000 32 := broadcastInDim S2x120000 ![] bcast_S_S2x120000 main_c_6
  let main_v20 : IVec S2x120000 1 := cmpi .sge main_arg4 main_v19
  let main_c_7 : IVec S_ 32 := constantI S_ 32 20000#32
  let main_v21 : IVec S2x120000 32 := broadcastInDim S2x120000 ![] bcast_S_S2x120000 main_c_7
  let main_v22 : IVec S2x120000 1 := cmpi .slt main_arg4 main_v21
  let main_v23 : IVec S2x120000 1 := andi main_v20 main_v22
  let main_c_8 : IVec S_ 1 := constantI S_ 1 1#1
  let main_v24 : IVec S_ 1 := (fun x v => Host.reduce IntOp.andi x v reducesTo_S2x120000_S_d0_1 h_S_) main_v23 main_c_8
  let main_v25 : IVec S_ 1 := andi main_v18 main_v24
  main_v25

def fn {F : FTy → Type} [FloatOps F] (main_arg0 : FVec F S20000x9x64 .f32) (main_arg1 : FVec F S120000x9x9 .f32) (main_arg2 : FVec F S120000x9x9 .f32) (main_arg3 : FVec F S120000x256 .f32) (main_arg4 : IVec S2x120000 32) : IVec S_ 1 :=
  let main_v0 : FVec F S20000x9x64 .f32 := Host.absf main_arg0
  let main_cst : FVec F S_ .f32 := constant S_ .f32 0x7F800000#32
  let main_v1 : FVec F S20000x9x64 .f32 := broadcastInDim S20000x9x64 ![] bcast_S_S20000x9x64 main_cst
  let main_v2 : IVec S20000x9x64 1 := cmpf .olt main_v0 main_v1
  let main_c : IVec S_ 1 := constantI S_ 1 1#1
  let main_v3 : IVec S_ 1 := (fun x v => Host.reduce IntOp.andi x v reducesTo_S20000x9x64_S_d0_1_2 h_S_) main_v2 main_c
  let main_v4 : FVec F S120000x9x9 .f32 := Host.absf main_arg1
  let main_cst_0 : FVec F S_ .f32 := constant S_ .f32 0x7F800000#32
  let main_v5 : FVec F S120000x9x9 .f32 := broadcastInDim S120000x9x9 ![] bcast_S_S120000x9x9 main_cst_0
  let main_v6 : IVec S120000x9x9 1 := cmpf .olt main_v4 main_v5
  let main_c_1 : IVec S_ 1 := constantI S_ 1 1#1
  let main_v7 : IVec S_ 1 := (fun x v => Host.reduce IntOp.andi x v reducesTo_S120000x9x9_S_d0_1_2 h_S_) main_v6 main_c_1
  let main_v8 : IVec S_ 1 := andi main_v3 main_v7
  let main_v9 : FVec F S120000x9x9 .f32 := Host.absf main_arg2
  let main_cst_2 : FVec F S_ .f32 := constant S_ .f32 0x7F800000#32
  let main_v10 : FVec F S120000x9x9 .f32 := broadcastInDim S120000x9x9 ![] bcast_S_S120000x9x9 main_cst_2
  let main_v11 : IVec S120000x9x9 1 := cmpf .olt main_v9 main_v10
  let main_c_3 : IVec S_ 1 := constantI S_ 1 1#1
  let main_v12 : IVec S_ 1 := (fun x v => Host.reduce IntOp.andi x v reducesTo_S120000x9x9_S_d0_1_2 h_S_) main_v11 main_c_3
  let main_v13 : IVec S_ 1 := andi main_v8 main_v12
  let main_v14 : FVec F S120000x256 .f32 := Host.absf main_arg3
  let main_cst_4 : FVec F S_ .f32 := constant S_ .f32 0x7F800000#32
  let main_v15 : FVec F S120000x256 .f32 := broadcastInDim S120000x256 ![] bcast_S_S120000x256 main_cst_4
  let main_v16 : IVec S120000x256 1 := cmpf .olt main_v14 main_v15
  fn_part1 (F := F) main_arg4 main_v13 main_v16
-- ==== Kernel.lean ====
abbrev S20000x9x64 : Shape := ⟨3, ![20000, 9, 64]⟩
abbrev S120000x9x9 : Shape := ⟨3, ![120000, 9, 9]⟩
abbrev S120000x256 : Shape := ⟨2, ![120000, 256]⟩
abbrev S2x120000 : Shape := ⟨2, ![2, 120000]⟩
abbrev S1x120000 : Shape := ⟨2, ![1, 120000]⟩
abbrev S120000 : Shape := ⟨1, ![120000]⟩
abbrev S_ : Shape := ⟨0, ![]⟩
abbrev S120000x1 : Shape := ⟨2, ![120000, 1]⟩
abbrev S1 : Shape := ⟨1, ![1]⟩
abbrev S1x1 : Shape := ⟨2, ![1, 1]⟩
abbrev S120000x9x64 : Shape := ⟨3, ![120000, 9, 64]⟩
abbrev S120000x9x128 : Shape := ⟨3, ![120000, 9, 128]⟩
abbrev S600x9x9 : Shape := ⟨3, ![600, 9, 9]⟩
abbrev S600x9x128 : Shape := ⟨3, ![600, 9, 128]⟩
abbrev S600x256 : Shape := ⟨2, ![600, 256]⟩
abbrev S600x128 : Shape := ⟨2, ![600, 128]⟩
abbrev S600x1x128 : Shape := ⟨3, ![600, 1, 128]⟩
abbrev S600x8x128 : Shape := ⟨3, ![600, 8, 128]⟩

abbrev nBuf : Space → Nat
  | .hbm => 57
  | .vmem => 10
  | .smem => 0
  | _ => 0

abbrev bufTy : (tb : Table) → Fin (tcTables nBuf tb) → BufTy
  | .hbm, ⟨0, _⟩ => ⟨S20000x9x64, .f32⟩
  | .hbm, ⟨1, _⟩ => ⟨S120000x9x9, .f32⟩
  | .hbm, ⟨2, _⟩ => ⟨S120000x9x9, .f32⟩
  | .hbm, ⟨3, _⟩ => ⟨S120000x256, .f32⟩
  | .hbm, ⟨4, _⟩ => ⟨S2x120000, .i32⟩
  | .hbm, ⟨5, _⟩ => ⟨S1x120000, .i32⟩
  | .hbm, ⟨6, _⟩ => ⟨S120000, .i32⟩
  | .hbm, ⟨7, _⟩ => ⟨S1x120000, .i32⟩
  | .hbm, ⟨8, _⟩ => ⟨S120000, .i32⟩
  | .hbm, ⟨9, _⟩ => ⟨S_, .i32⟩
  | .hbm, ⟨10, _⟩ => ⟨S120000, .i32⟩
  | .hbm, ⟨11, _⟩ => ⟨S120000, .i1⟩
  | .hbm, ⟨12, _⟩ => ⟨S_, .i32⟩
  | .hbm, ⟨13, _⟩ => ⟨S120000, .i32⟩
  | .hbm, ⟨14, _⟩ => ⟨S120000, .i32⟩
  | .hbm, ⟨15, _⟩ => ⟨S120000, .i32⟩
  | .hbm, ⟨16, _⟩ => ⟨S120000x1, .i32⟩
  | .hbm, ⟨17, _⟩ => ⟨S1, .i32⟩
  | .hbm, ⟨18, _⟩ => ⟨S_, .i32⟩
  | .hbm, ⟨19, _⟩ => ⟨S120000x1, .i32⟩
  | .hbm, ⟨20, _⟩ => ⟨S120000x1, .i1⟩
  | .hbm, ⟨21, _⟩ => ⟨S1x1, .i32⟩
  | .hbm, ⟨22, _⟩ => ⟨S120000x1, .i32⟩
  | .hbm, ⟨23, _⟩ => ⟨S120000x1, .i1⟩
  | .hbm, ⟨24, _⟩ => ⟨S120000x1, .i1⟩
  | .hbm, ⟨25, _⟩ => ⟨S_, .i1⟩
  | .hbm, ⟨26, _⟩ => ⟨S120000, .i1⟩
  | .hbm, ⟨27, _⟩ => ⟨S120000x9x64, .f32⟩
  | .hbm, ⟨28, _⟩ => ⟨S120000x9x64, .i1⟩
  | .hbm, ⟨29, _⟩ => ⟨S_, .f32⟩
  | .hbm, ⟨30, _⟩ => ⟨S120000x9x64, .f32⟩
  | .hbm, ⟨31, _⟩ => ⟨S120000x9x64, .f32⟩
  | .hbm, ⟨32, _⟩ => ⟨S_, .i32⟩
  | .hbm, ⟨33, _⟩ => ⟨S120000, .i32⟩
  | .hbm, ⟨34, _⟩ => ⟨S120000, .i1⟩
  | .hbm, ⟨35, _⟩ => ⟨S_, .i32⟩
  | .hbm, ⟨36, _⟩ => ⟨S120000, .i32⟩
  | .hbm, ⟨37, _⟩ => ⟨S120000, .i32⟩
  | .hbm, ⟨38, _⟩ => ⟨S120000, .i32⟩
  | .hbm, ⟨39, _⟩ => ⟨S120000x1, .i32⟩
  | .hbm, ⟨40, _⟩ => ⟨S1, .i32⟩
  | .hbm, ⟨41, _⟩ => ⟨S_, .i32⟩
  | .hbm, ⟨42, _⟩ => ⟨S120000x1, .i32⟩
  | .hbm, ⟨43, _⟩ => ⟨S120000x1, .i1⟩
  | .hbm, ⟨44, _⟩ => ⟨S1x1, .i32⟩
  | .hbm, ⟨45, _⟩ => ⟨S120000x1, .i32⟩
  | .hbm, ⟨46, _⟩ => ⟨S120000x1, .i1⟩
  | .hbm, ⟨47, _⟩ => ⟨S120000x1, .i1⟩
  | .hbm, ⟨48, _⟩ => ⟨S_, .i1⟩
  | .hbm, ⟨49, _⟩ => ⟨S120000, .i1⟩
  | .hbm, ⟨50, _⟩ => ⟨S120000x9x64, .f32⟩
  | .hbm, ⟨51, _⟩ => ⟨S120000x9x64, .i1⟩
  | .hbm, ⟨52, _⟩ => ⟨S_, .f32⟩
  | .hbm, ⟨53, _⟩ => ⟨S120000x9x64, .f32⟩
  | .hbm, ⟨54, _⟩ => ⟨S120000x9x64, .f32⟩
  | .hbm, ⟨55, _⟩ => ⟨S120000x9x128, .f32⟩
  | .hbm, ⟨56, _⟩ => ⟨S120000x9x128, .f32⟩
  | .local _ .vmem, ⟨0, _⟩ => ⟨S600x9x9, .f32⟩
  | .local _ .vmem, ⟨1, _⟩ => ⟨S600x9x9, .f32⟩
  | .local _ .vmem, ⟨2, _⟩ => ⟨S600x9x9, .f32⟩
  | .local _ .vmem, ⟨3, _⟩ => ⟨S600x9x9, .f32⟩
  | .local _ .vmem, ⟨4, _⟩ => ⟨S600x9x128, .f32⟩
  | .local _ .vmem, ⟨5, _⟩ => ⟨S600x9x128, .f32⟩
  | .local _ .vmem, ⟨6, _⟩ => ⟨S600x256, .f32⟩
  | .local _ .vmem, ⟨7, _⟩ => ⟨S600x256, .f32⟩
  | .local _ .vmem, ⟨8, _⟩ => ⟨S600x9x128, .f32⟩
  | .local _ .vmem, ⟨9, _⟩ => ⟨S600x9x128, .f32⟩
  | _, _ => ⟨S20000x9x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S600x9x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S600x9x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S600x9x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S600x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S600x9x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x120000_S1x120000_0_0 : S2x120000.Slices ![0, 0] S1x120000
  shapeCasts_S1x120000_S120000 : S1x120000.ShapeCasts S120000
  slices_S2x120000_S1x120000_1_0 : S2x120000.Slices ![1, 0] S1x120000
  bcast_S_S120000 : S_.BroadcastsInDim S120000 (![] : Fin 0 → Fin S120000.rank)
  bcast_S120000_S120000x1_0 : S120000.BroadcastsInDim S120000x1 (![0] : Fin 1 → Fin S120000x1.rank)
  bcast_S_S120000x1 : S_.BroadcastsInDim S120000x1 (![] : Fin 0 → Fin S120000x1.rank)
  bcast_S1_S1x1_1 : S1.BroadcastsInDim S1x1 (![1] : Fin 1 → Fin S1x1.rank)
  bcast_S1x1_S120000x1_0_1 : S1x1.BroadcastsInDim S120000x1 (![0, 1] : Fin 2 → Fin S120000x1.rank)
  reducesTo_S120000x1_S120000_d1 : S120000x1.ReducesTo [1] S120000
  h_S_ : 0 < S_.numel
  bcast_S120000_S120000x9x64_0 : S120000.BroadcastsInDim S120000x9x64 (![0] : Fin 1 → Fin S120000x9x64.rank)
  bcast_S_S120000x9x64 : S_.BroadcastsInDim S120000x9x64 (![] : Fin 0 → Fin S120000x9x64.rank)
  concatenates_S120000x9x64_S120000x9x64_S120000x9x128_d2 : Shape.Concatenates [S120000x9x64, S120000x9x64] S120000x9x128 2
  inb_S600x9x9_S600x9x9_0_0_0 : ∀ a, (![0, 0, 0] : Fin 3 → Nat) a + S600x9x9.size a ≤ S600x9x9.size a
  h_S600x9x9 : 0 < S600x9x9.numel
  bitsLt_bf16_f32 : FTy.bits .bf16 < FTy.bits .f32
  inb_S600x9x128_S600x9x128_0_0_0 : ∀ a, (![0, 0, 0] : Fin 3 → Nat) a + S600x9x128.size a ≤ S600x9x128.size a
  h_S600x9x128 : 0 < S600x9x128.numel
  shapeCasts_S600x9x128_S600x9x128 : S600x9x128.ShapeCasts S600x9x128
  inb_S600x256_S600x128_0_0 : ∀ a, (![0, 0] : Fin 2 → Nat) a + S600x128.size a ≤ S600x256.size a
  h_S600x128 : 0 < S600x128.numel
  shapeCasts_S600x128_S600x1x128 : S600x128.ShapeCasts S600x1x128
  inb_S600x256_S600x128_0_128 : ∀ a, (![0, 128] : Fin 2 → Nat) a + S600x128.size a ≤ S600x256.size a
  concatenates_S600x1x128_S600x1x128_S600x1x128_S600x1x128_S600x1x128_S600x1x128_S600x1x128_S600x1x128_S600x8x128_d1 : Shape.Concatenates [S600x1x128, S600x1x128, S600x1x128, S600x1x128, S600x1x128, S600x1x128, S600x1x128, S600x1x128] S600x8x128 1
  slices_S600x9x128_o0_0_0_S600x1x128 : S600x9x128.Slices ![0, 0, 0] S600x1x128
  slices_S600x9x128_o0_1_0_S600x8x128 : S600x9x128.Slices ![0, 1, 0] S600x8x128
  concatenates_S600x1x128_S600x8x128_S600x9x128_d1 : Shape.Concatenates [S600x1x128, S600x8x128] S600x9x128 1
  gather_S20000x9x64_S120000x1_S120000x9x64_12_0_n_n_0_1_1964_wf : GatherDims.WF S20000x9x64 S120000x1 S120000x9x64 [1, 2] [0] [] [0] [] 1 ![1, 9, 64]
  dot_S600x9x9_S600x9x128_S600x9x128_2_1_1_2_0_0_wf : DotDims.WF S600x9x9 S600x9x128 S600x9x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S600x9x9.size a ≤ S120000x9x9.size a
  hwx0_0 : ∀ i : grid0.Coords, EltTy.bits .f32 = 32 ∨ (Rect.block (s := S120000x9x9) S600x9x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S600x9x9.size a ≤ S120000x9x9.size a
  hwx0_1 : ∀ i : grid0.Coords, EltTy.bits .f32 = 32 ∨ (Rect.block (s := S120000x9x9) S600x9x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S600x9x128.size a ≤ S120000x9x128.size a
  hwx0_2 : ∀ i : grid0.Coords, EltTy.bits .f32 = 32 ∨ (Rect.block (s := S120000x9x128) S600x9x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S600x256.size a ≤ S120000x256.size a
  hwx0_3 : ∀ i : grid0.Coords, EltTy.bits .f32 = 32 ∨ (Rect.block (s := S120000x256) S600x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S600x9x128.size a ≤ S120000x9x128.size a
  hwx0_4 : ∀ i : grid0.Coords, EltTy.bits .f32 = 32 ∨ (Rect.block (s := S120000x9x128) S600x9x128.size (cc0_transform_4 i) (hinb0_4 i)).WholeWords (EltTy.packing .f32)

variable [Facts₀]

def gather_S20000x9x64_S120000x1_S120000x9x64_12_0_n_n_0_1_1964 : GatherDims S20000x9x64 S120000x1 S120000x9x64 where
  offsetDims := [1, 2]
  collapsedSliceDims := [0]
  operandBatchingDims := []
  startIndicesBatchingDims := []
  startIndexMap := [0]
  indexVectorDim := 1
  sliceSizes := ![1, 9, 64]
  wf := gather_S20000x9x64_S120000x1_S120000x9x64_12_0_n_n_0_1_1964_wf
def dot_S600x9x9_S600x9x128_S600x9x128_2_1_1_2_0_0 : DotDims S600x9x9 S600x9x128 S600x9x128 where
  lhsContracting := [2]
  rhsContracting := [1]
  lhsNonContracting := [1]
  rhsNonContracting := [2]
  lhsBatch := [0]
  rhsBatch := [0]
  wf := dot_S600x9x9_S600x9x128_S600x9x128_2_1_1_2_0_0_wf

abbrev win0_0 : Pipeline.Window sig grid0 :=
  Pipeline.Window.ofSpec (Memref.whole main_arg1) S600x9x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S600x9x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S600x9x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S600x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S600x9x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S20000x9x64 : Shape := ⟨3, ![20000, 9, 64]⟩
abbrev S120000x9x9 : Shape := ⟨3, ![120000, 9, 9]⟩
abbrev S120000x256 : Shape := ⟨2, ![120000, 256]⟩
abbrev S2x120000 : Shape := ⟨2, ![2, 120000]⟩
abbrev S8 : Shape := ⟨1, ![8]⟩
abbrev S1x120000 : Shape := ⟨2, ![1, 120000]⟩
abbrev S120000 : Shape := ⟨1, ![120000]⟩
abbrev S_ : Shape := ⟨0, ![]⟩
abbrev S120000x1 : Shape := ⟨2, ![120000, 1]⟩
abbrev S120000x9x64 : Shape := ⟨3, ![120000, 9, 64]⟩
abbrev S120000x9x128 : Shape := ⟨3, ![120000, 9, 128]⟩
abbrev S120000x2x128 : Shape := ⟨3, ![120000, 2, 128]⟩
abbrev S8x1 : Shape := ⟨2, ![8, 1]⟩
abbrev S120000x8x128 : Shape := ⟨3, ![120000, 8, 128]⟩
abbrev S120000x1x128 : Shape := ⟨3, ![120000, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S20000x9x64, .f32⟩
  | .hbm, ⟨1, _⟩ => ⟨S120000x9x9, .f32⟩
  | .hbm, ⟨2, _⟩ => ⟨S120000x9x9, .f32⟩
  | .hbm, ⟨3, _⟩ => ⟨S120000x256, .f32⟩
  | .hbm, ⟨4, _⟩ => ⟨S2x120000, .i32⟩
  | .hbm, ⟨5, _⟩ => ⟨S8, .i32⟩
  | .hbm, ⟨6, _⟩ => ⟨S1x120000, .i32⟩
  | .hbm, ⟨7, _⟩ => ⟨S120000, .i32⟩
  | .hbm, ⟨8, _⟩ => ⟨S_, .i32⟩
  | .hbm, ⟨9, _⟩ => ⟨S120000, .i32⟩
  | .hbm, ⟨10, _⟩ => ⟨S120000, .i1⟩
  | .hbm, ⟨11, _⟩ => ⟨S_, .i32⟩
  | .hbm, ⟨12, _⟩ => ⟨S120000, .i32⟩
  | .hbm, ⟨13, _⟩ => ⟨S120000, .i32⟩
  | .hbm, ⟨14, _⟩ => ⟨S120000, .i32⟩
  | .hbm, ⟨15, _⟩ => ⟨S120000x1, .i32⟩
  | .hbm, ⟨16, _⟩ => ⟨S120000x9x64, .f32⟩
  | .hbm, ⟨17, _⟩ => ⟨S1x120000, .i32⟩
  | .hbm, ⟨18, _⟩ => ⟨S120000, .i32⟩
  | .hbm, ⟨19, _⟩ => ⟨S_, .i32⟩
  | .hbm, ⟨20, _⟩ => ⟨S120000, .i32⟩
  | .hbm, ⟨21, _⟩ => ⟨S120000, .i1⟩
  | .hbm, ⟨22, _⟩ => ⟨S_, .i32⟩
  | .hbm, ⟨23, _⟩ => ⟨S120000, .i32⟩
  | .hbm, ⟨24, _⟩ => ⟨S120000, .i32⟩
  | .hbm, ⟨25, _⟩ => ⟨S120000, .i32⟩
  | .hbm, ⟨26, _⟩ => ⟨S120000x1, .i32⟩
  | .hbm, ⟨27, _⟩ => ⟨S120000x9x64, .f32⟩
  | .hbm, ⟨28, _⟩ => ⟨S120000x9x128, .f32⟩
  | .hbm, ⟨29, _⟩ => ⟨S120000x9x128, .f32⟩
  | .hbm, ⟨30, _⟩ => ⟨S120000x9x128, .f32⟩
  | .hbm, ⟨31, _⟩ => ⟨S120000x256, .f32⟩
  | .hbm, ⟨32, _⟩ => ⟨S120000x256, .f32⟩
  | .hbm, ⟨33, _⟩ => ⟨S_, .f32⟩
  | .hbm, ⟨34, _⟩ => ⟨S120000x256, .f32⟩
  | .hbm, ⟨35, _⟩ => ⟨S120000x256, .f32⟩
  | .hbm, ⟨36, _⟩ => ⟨S_, .f32⟩
  | .hbm, ⟨37, _⟩ => ⟨S120000x256, .f32⟩
  | .hbm, ⟨38, _⟩ => ⟨S120000x256, .f32⟩
  | .hbm, ⟨39, _⟩ => ⟨S120000x2x128, .f32⟩
  | .hbm, ⟨40, _⟩ => ⟨S_, .i32⟩
  | .hbm, ⟨41, _⟩ => ⟨S8, .i32⟩
  | .hbm, ⟨42, _⟩ => ⟨S8, .i1⟩
  | .hbm, ⟨43, _⟩ => ⟨S_, .i32⟩
  | .hbm, ⟨44, _⟩ => ⟨S8, .i32⟩
  | .hbm, ⟨45, _⟩ => ⟨S8, .i32⟩
  | .hbm, ⟨46, _⟩ => ⟨S8, .i32⟩
  | .hbm, ⟨47, _⟩ => ⟨S8x1, .i32⟩
  | .hbm, ⟨48, _⟩ => ⟨S120000x8x128, .f32⟩
  | .hbm, ⟨49, _⟩ => ⟨S120000x1x128, .f32⟩
  | .hbm, ⟨50, _⟩ => ⟨S120000x1x128, .f32⟩
  | .hbm, ⟨51, _⟩ => ⟨S120000x1x128, .f32⟩
  | .hbm, ⟨52, _⟩ => ⟨S_, .f32⟩
  | .hbm, ⟨53, _⟩ => ⟨S120000x1x128, .f32⟩
  | .hbm, ⟨54, _⟩ => ⟨S120000x1x128, .f32⟩
  | .hbm, ⟨55, _⟩ => ⟨S_, .f32⟩
  | .hbm, ⟨56, _⟩ => ⟨S120000x1x128, .f32⟩
  | .hbm, ⟨57, _⟩ => ⟨S120000x1x128, .f32⟩
  | .hbm, ⟨58, _⟩ => ⟨S120000x1x128, .f32⟩
  | .hbm, ⟨59, _⟩ => ⟨S120000x8x128, .f32⟩
  | .hbm, ⟨60, _⟩ => ⟨S120000x8x128, .f32⟩
  | .hbm, ⟨61, _⟩ => ⟨S120000x9x128, .f32⟩
  | _, _ => ⟨S20000x9x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  slices_S2x120000_S1x120000_0_0 : S2x120000.Slices ![0, 0] S1x120000
  shapeCasts_S1x120000_S120000 : S1x120000.ShapeCasts S120000
  bcast_S_S120000 : S_.BroadcastsInDim S120000 (![] : Fin 0 → Fin S120000.rank)
  bcast_S120000_S120000x1_0 : S120000.BroadcastsInDim S120000x1 (![0] : Fin 1 → Fin S120000x1.rank)
  slices_S2x120000_S1x120000_1_0 : S2x120000.Slices ![1, 0] S1x120000
  concatenates_S120000x9x64_S120000x9x64_S120000x9x128_d2 : Shape.Concatenates [S120000x9x64, S120000x9x64] S120000x9x128 2
  bcast_S_S120000x256 : S_.BroadcastsInDim S120000x256 (![] : Fin 0 → Fin S120000x256.rank)
  shapeCasts_S120000x256_S120000x2x128 : S120000x256.ShapeCasts S120000x2x128
  bcast_S_S8 : S_.BroadcastsInDim S8 (![] : Fin 0 → Fin S8.rank)
  bcast_S8_S8x1_0 : S8.BroadcastsInDim S8x1 (![0] : Fin 1 → Fin S8x1.rank)
  slices_S120000x9x128_S120000x1x128_0_0_0 : S120000x9x128.Slices ![0, 0, 0] S120000x1x128
  bcast_S_S120000x1x128 : S_.BroadcastsInDim S120000x1x128 (![] : Fin 0 → Fin S120000x1x128.rank)
  slices_S120000x9x128_S120000x8x128_0_1_0 : S120000x9x128.Slices ![0, 1, 0] S120000x8x128
  concatenates_S120000x1x128_S120000x8x128_S120000x9x128_d1 : Shape.Concatenates [S120000x1x128, S120000x8x128] S120000x9x128 1
  gather_S20000x9x64_S120000x1_S120000x9x64_12_0_n_n_0_1_1964_wf : GatherDims.WF S20000x9x64 S120000x1 S120000x9x64 [1, 2] [0] [] [0] [] 1 ![1, 9, 64]
  dot_S120000x9x9_S120000x9x128_S120000x9x128_2_1_1_2_0_0_wf : DotDims.WF S120000x9x9 S120000x9x128 S120000x9x128 [2] [1] [1] [2] [0] [0]
  gather_S120000x2x128_S8x1_S120000x8x128_02_1_n_n_1_1_1200001128_wf : GatherDims.WF S120000x2x128 S8x1 S120000x8x128 [0, 2] [1] [] [1] [] 1 ![120000, 1, 128]

variable [Facts₀]

def gather_S20000x9x64_S120000x1_S120000x9x64_12_0_n_n_0_1_1964 : GatherDims S20000x9x64 S120000x1 S120000x9x64 where
  offsetDims := [1, 2]
  collapsedSliceDims := [0]
  operandBatchingDims := []
  startIndicesBatchingDims := []
  startIndexMap := [0]
  indexVectorDim := 1
  sliceSizes := ![1, 9, 64]
  wf := gather_S20000x9x64_S120000x1_S120000x9x64_12_0_n_n_0_1_1964_wf
def dot_S120000x9x9_S120000x9x128_S120000x9x128_2_1_1_2_0_0 : DotDims S120000x9x9 S120000x9x128 S120000x9x128 where
  lhsContracting := [2]
  rhsContracting := [1]
  lhsNonContracting := [1]
  rhsNonContracting := [2]
  lhsBatch := [0]
  rhsBatch := [0]
  wf := dot_S120000x9x9_S120000x9x128_S120000x9x128_2_1_1_2_0_0_wf
def gather_S120000x2x128_S8x1_S120000x8x128_02_1_n_n_1_1_1200001128 : GatherDims S120000x2x128 S8x1 S120000x8x128 where
  offsetDims := [0, 2]
  collapsedSliceDims := [1]
  operandBatchingDims := []
  startIndicesBatchingDims := []
  startIndexMap := [1]
  indexVectorDim := 1
  sliceSizes := ![120000, 1, 128]
  wf := gather_S120000x2x128_S8x1_S120000x8x128_02_1_n_n_1_1_1200001128_wf

class Facts : Prop extends Facts₀ where

variable [Facts]
-- ==== Proof.PreDecode.lean ====
/- The precondition, read back at the edge list: the conjunction of the bounds 0 ≤ e and e < 20000 taken over every entry e of
   the 2 × 120000 edge array is 1, hence each entry, as a signed integer, is a node number in 0..19999. -/
import proofs.«407570_j9036611190826_2_alg».proof.Pre_finite_inputs
import proofs.«407570_j9036611190826_2_alg».proof.Proof.Gen.Pre_finite_inputs
import Idealize.ShloMosaic.Lib.ReduceAll

noncomputable section

namespace Cert.Pre_finite_inputs.Decode

open Cert.Pre_finite_inputs Cert.Pre_finite_inputs.Gen Idealize.ShloMosaic

variable {F : FTy → Type} [FloatOps F]

/-- The shape with no axes has exactly one index. -/
private instance : Subsingleton S_.Idx := ⟨fun a b => funext fun d => d.elim0⟩

/-- Under the precondition every word of the edge list, read as a signed integer, is a node number 0..19999. -/
theorem edge_in_range (x : FVec F S20000x9x64 .f32) (W Winv : FVec F S120000x9x9 .f32) (g : FVec F S120000x256 .f32)
    (ei : IVec S2x120000 32) (h : Cert.Pre_finite_inputs.fn (F := F) x W Winv g ei = fun _ => 1#1) (j : S2x120000.Idx) :
    0 ≤ (ei j).toInt ∧ (ei j).toInt < 20000 := by
  -- the precondition's one value is 1
  have h0 := congrFun h (fun a => a.elim0)
  dsimp only [fn, fn_part1] at h0
  -- it is a conjunction whose last conjunct is the conjunction, over both axes of the edge array, of (0 ≤ e) ∧ (e < 20000)
  obtain ⟨_, hall⟩ := IntOp.andi_eq_one.1 h0
  -- a conjunction over all entries that is 1 is 1 at the entry j
  have hj := Host.reduce_andi_all _ _ _ _ _ hall j
  obtain ⟨hge, hlt⟩ := IntOp.andi_eq_one.1 hj
  -- a signed comparison of words that is 1 is the comparison of their integer values; the constant array reads its word everywhere
  have h1 : (0#32).toInt ≤ (ei j).toInt := IntOp.cmpi_sge.1 hge
  have h2 : (ei j).toInt < (20000#32).toInt := IntOp.cmpi_slt.1 hlt
  have z0 : (0#32).toInt = 0 := by decide
  have z1 : (20000#32).toInt = 20000 := by decide
  rw [z0] at h1
  rw [z1] at h2
  exact ⟨h1, h2⟩

end Cert.Pre_finite_inputs.Decode

end
-- ==== Proof.KerTerm.lean ====
/-
  The kernel program's edge messages as a term of the node features and the edge list: what the host operations before
  the tiled call compute into the call's third operand.

  As in the reference, rows 0 and 1 of the edge list are gathered from the node features, negative index words wrapped
  by the 20000 nodes, and laid side by side along the channel axis. Unlike the reference, each gathered row is kept only
  where its wrapped index lies in 0..19999 and is replaced by the not-a-number word elsewhere.
-/
import proofs.«407570_j9036611190826_2_alg».proof.KernelIdeal
import proofs.«407570_j9036611190826_2_alg».proof.Proof.Gen.KernelIdeal

noncomputable section

namespace Cert.KernelIdeal.KerValue

open Cert.KernelIdeal Cert.KernelIdeal.Gen Idealize.ShloMosaic Idealize.ShloMosaic.TcCoe

variable {F : FTy → Type} [FloatOps F]

/-- Row `r` (0: source, 1: target) of the edge list, as a vector of 120000 index words. -/
def edgeRow (r : Nat) (hs : S2x120000.Slices ![r, 0] S1x120000) (ei : IVec S2x120000 32) : IVec S120000 32 :=
  shapeCast S120000 (extractStridedSlice S1x120000 ![r, 0] ei hs) shapeCasts_S1x120000_S120000

/-- Index words with the negative ones wrapped by the 20000 nodes, as a column of start indices. -/
def wrapIdx (idx : IVec S120000 32) : IVec S120000x1 32 :=
  broadcastInDim S120000x1 ![0] bcast_S120000_S120000x1_0
    (select (cmpi .slt idx (broadcastInDim S120000 ![] bcast_S_S120000 (constantI S_ 32 0#32)))
      (addi idx (broadcastInDim S120000 ![] bcast_S_S120000 (constantI S_ 32 20000#32))) idx)

/-- Per edge, whether the wrapped index lies in 0..19999. -/
def inRange (i : IVec S120000x1 32) : IVec S120000 1 :=
  Host.reduce IntOp.andi
    (andi (cmpi .sge i (broadcastInDim S120000x1 ![] bcast_S_S120000x1 (constantI S_ 32 0#32)))
      (cmpi .sle i (broadcastInDim S120000x1 ![0, 1] bcast_S1x1_S120000x1_0_1
        (broadcastInDim S1x1 ![1] bcast_S1_S1x1_1 (constantI S1 32 19999#32)))))
    (constantI S_ 1 1#1) reducesTo_S120000x1_S120000_d1 h_S_

/-- The node features gathered at a vector of node indices, not-a-number where the index is out of range. -/
def nodeRows (x : FVec F S20000x9x64 .f32) (idx : IVec S120000 32) : FVec F S120000x9x64 .f32 :=
  select (broadcastInDim S120000x9x64 ![0] bcast_S120000_S120000x9x64_0 (inRange (wrapIdx idx)))
    (Host.gather gather_S20000x9x64_S120000x1_S120000x9x64_12_0_n_n_0_1_1964 x (wrapIdx idx))
    (broadcastInDim S120000x9x64 ![] bcast_S_S120000x9x64 (constant S_ .f32 0x7FC00000#32))

/-- The edge messages: source features beside target features along the channel axis. -/
def msg (x : FVec F S20000x9x64 .f32) (ei : IVec S2x120000 32) : FVec F S120000x9x128 .f32 :=
  concatenate S120000x9x128 2
    [⟨S120000x9x64, nodeRows x (edgeRow 0 slices_S2x120000_S1x120000_0_0 ei)⟩,
     ⟨S120000x9x64, nodeRows x (edgeRow 1 slices_S2x120000_S1x120000_1_0 ei)⟩]
    concatenates_S120000x9x64_S120000x9x64_S120000x9x128_d2

end Cert.KernelIdeal.KerValue

end
-- ==== Proof.RefTerm.lean ====
/-
  The reference's result as a term of its argument arrays, in two stages.

  `msg x ei`: the edge messages, 120000 x 9 x 128. Rows 0 and 1 of the edge list `ei` are the source and the target
  node of each edge; an index word below zero is wrapped by the number of nodes, as Python indexing does; the node
  features `x` are gathered at the source (channels 0..63) and at the target (channels 64..127).

  `tail W Winv g X`: everything after the messages `X`: the product with `W` over the coefficient axis, the product
  with `Winv` back, the sigmoid of the gating scalars `g` laid out as two runs of 128 channels and picked per
  coefficient by the table 0, 1, 0, 1, 0, 1, 1, 1, the SiLU of coefficient 0, the gated coefficients 1..8, and the two
  joined along the coefficient axis. The sigmoid is spelt 1 / (1 + exp (-x)), as the host program spells it.
-/
import proofs.«407570_j9036611190826_2_alg».proof.ReferenceIdeal
import proofs.«407570_j9036611190826_2_alg».proof.Proof.Gen.ReferenceIdeal

noncomputable section

namespace Cert.ReferenceIdeal.RefValue

open Cert.ReferenceIdeal Cert.ReferenceIdeal.Gen Idealize.ShloMosaic Idealize.ShloMosaic.TcCoe

variable {F : FTy → Type} [FloatOps F]

/-- Row `r` (0: source, 1: target) of the edge list, as a vector of 120000 index words. -/
def edgeRow (r : Nat) (hs : S2x120000.Slices ![r, 0] S1x120000) (ei : IVec S2x120000 32) : IVec S120000 32 :=
  shapeCast S120000 (extractStridedSlice S1x120000 ![r, 0] ei hs) shapeCasts_S1x120000_S120000

/-- Index words with the negative ones wrapped by the 20000 nodes, as a column of start indices. -/
def wrapIdx (idx : IVec S120000 32) : IVec S120000x1 32 :=
  broadcastInDim S120000x1 ![0] bcast_S120000_S120000x1_0
    (select (cmpi .slt idx (broadcastInDim S120000 ![] bcast_S_S120000 (constantI S_ 32 0#32)))
      (addi idx (broadcastInDim S120000 ![] bcast_S_S120000 (constantI S_ 32 20000#32))) idx)

/-- The node features gathered at a vector of node indices. -/
def nodeRows (x : FVec F S20000x9x64 .f32) (idx : IVec S120000 32) : FVec F S120000x9x64 .f32 :=
  Host.gather gather_S20000x9x64_S120000x1_S120000x9x64_12_0_n_n_0_1_1964 x (wrapIdx idx)

/-- The edge messages: source features beside target features along the channel axis. -/
def msg (x : FVec F S20000x9x64 .f32) (ei : IVec S2x120000 32) : FVec F S120000x9x128 .f32 :=
  concatenate S120000x9x128 2
    [⟨S120000x9x64, nodeRows x (edgeRow 0 slices_S2x120000_S1x120000_0_0 ei)⟩,
     ⟨S120000x9x64, nodeRows x (edgeRow 1 slices_S2x120000_S1x120000_1_0 ei)⟩]
    concatenates_S120000x9x64_S120000x9x64_S120000x9x128_d2

/-- The sigmoid as the host spells it, 1 / (1 + exp (-v)), over an array of any shape `s`. -/
def hostSigmoid (s : Shape) (hb : S_.BroadcastsInDim s (![] : Fin 0 → Fin s.rank)) (v : FVec F s .f32) : FVec F s .f32 :=
  Host.divf (broadcastInDim s ![] hb (constant S_ .f32 0x3F800000#32))
    (addf (broadcastInDim s ![] hb (constant S_ .f32 0x3F800000#32)) (Host.exp (Host.negf v)))

/-- The table 0, 1, 0, 1, 0, 1, 1, 1 of gate runs, negative entries wrapped by 2, as a column of start indices. -/
def gateTable : IVec S8x1 32 :=
  broadcastInDim S8x1 ![0] bcast_S8_S8x1_0
    (select (cmpi .slt (fun i => lit0 (S8.rowMajor i)) (broadcastInDim S8 ![] bcast_S_S8 (constantI S_ 32 0#32)))
      (addi (fun i => lit0 (S8.rowMajor i)) (broadcastInDim S8 ![] bcast_S_S8 (constantI S_ 32 2#32)))
      (fun i => lit0 (S8.rowMajor i)))

/-- The message rotated and rotated back: two batched products over the coefficient axis. -/
def rotated (W Winv : FVec F S120000x9x9 .f32) (X : FVec F S120000x9x128 .f32) : FVec F S120000x9x128 .f32 :=
  Host.dotGeneral dot_S120000x9x9_S120000x9x128_S120000x9x128_2_1_1_2_0_0 none Winv
    (Host.dotGeneral dot_S120000x9x9_S120000x9x128_S120000x9x128_2_1_1_2_0_0 none W X)

/-- The sigmoid gates, one per coefficient 1..8 and channel. -/
def gates (g : FVec F S120000x256 .f32) : FVec F S120000x8x128 .f32 :=
  Host.gather gather_S120000x2x128_S8x1_S120000x8x128_02_1_n_n_1_1_1200001128
    (shapeCast S120000x2x128 (hostSigmoid S120000x256 bcast_S_S120000x256 g) shapeCasts_S120000x256_S120000x2x128) gateTable

/-- Everything after the messages. -/
def tail (W Winv : FVec F S120000x9x9 .f32) (g : FVec F S120000x256 .f32) (X : FVec F S120000x9x128 .f32) :
    FVec F S120000x9x128 .f32 :=
  concatenate S120000x9x128 1
    [⟨S120000x1x128, mulf (extractStridedSlice S120000x1x128 ![0, 0, 0] (rotated W Winv X) slices_S120000x9x128_S120000x1x128_0_0_0)
        (hostSigmoid S120000x1x128 bcast_S_S120000x1x128
          (extractStridedSlice S120000x1x128 ![0, 0, 0] (rotated W Winv X) slices_S120000x9x128_S120000x1x128_0_0_0))⟩,
     ⟨S120000x8x128, mulf (extractStridedSlice S120000x8x128 ![0, 1, 0] (rotated W Winv X) slices_S120000x9x128_S120000x8x128_0_1_0)
        (gates g)⟩]
    concatenates_S120000x1x128_S120000x8x128_S120000x9x128_d1

end Cert.ReferenceIdeal.RefValue

end
-- ==== Proof.KerMsg.lean ====
/-
  The tiled call's third operand is the edge messages, and under the claim's precondition they are the reference's.

  First: the host operations before the tiled call cut rows 0 and 1 out of the edge list, gather the node features at
  each row with negative index words wrapped by the 20000 nodes, replace a gathered row by the not-a-number word where
  its wrapped index is outside 0..19999, and lay the two results side by side along the channel axis; read one stretch
  of operations at a time from any contents of the buffers, their composition is `msg` of the launched node features and
  edge list.

  Second: where every word of the edge list reads, signed, as a number in 0..19999, no word is wrapped, both comparisons
  of the mask hold at every edge, the reduction by `and` over the unit axis is 1, and the select keeps every gathered
  row: `msg` is the reference's gather of the same wrapped indices.
-/
import proofs.«407570_j9036611190826_2_alg».proof.Proof.KerTerm
import proofs.«407570_j9036611190826_2_alg».proof.Proof.RefTerm
import proofs.«407570_j9036611190826_2_alg».proof.Proof.Gen.KernelIdeal.Frame
import Idealize.ShloMosaic.Lib.StableHlo.Run
import Idealize.ShloMosaic.Lib.ReduceAll
import Idealize.ShloMosaic.Lib.ValueIdx

noncomputable section

namespace Cert.KernelIdeal.KerValue

open Cert.KernelIdeal Cert.KernelIdeal.Gen Idealize.ShloMosaic Idealize.ShloMosaic.TcCoe Idealize.SL.Sem

variable {F : FTy → Type} [FloatOps F]

section Stretches

open Idealize.ShloMosaic.StableHlo

/-! ## The host operations before the tiled call, stretch by stretch

Each stretch is read from any contents `W` of the buffers: what it leaves in the buffers later stretches read, as a
term of what it found in the buffers it reads. -/

/-- The first stretch leaves row 0 of the edge list, reshaped to a vector, in the first gather's index buffer. -/
private theorem rows_v1 (W : Valuation τ sig (Elt F)) :
    after (hostOps0 (F := F)) W (Proc.devRef .tc main_v1)
      = edgeRow 0 slices_S2x120000_S1x120000_0_0 (W (Proc.devRef .tc main_arg4)) := by
  dsimp only [Gen.hostOps0]
  after_results
  rfl

/-- The first stretch leaves row 1 of the edge list, reshaped to a vector, in the second gather's index buffer. -/
private theorem rows_v3 (W : Valuation τ sig (Elt F)) :
    after (hostOps0 (F := F)) W (Proc.devRef .tc main_v3)
      = edgeRow 1 slices_S2x120000_S1x120000_1_0 (W (Proc.devRef .tc main_arg4)) := by
  dsimp only [Gen.hostOps0]
  after_results
  rfl

/-- The first stretch does not write the node features. -/
private theorem rows_arg0 (W : Valuation τ sig (Elt F)) :
    after (hostOps0 (F := F)) W (Proc.devRef .tc main_arg0) = W (Proc.devRef .tc main_arg0) := by
  dsimp only [Gen.hostOps0]
  after_results

/-- The second stretch leaves the masked gather of the node features at its index vector. -/
private theorem take0_v4 (W : Valuation τ sig (Elt F)) :
    after (hostOps0_1 (F := F)) W (Proc.devRef .tc main_v4)
      = nodeRows (W (Proc.devRef .tc main_arg0)) (W (Proc.devRef .tc main_v1)) := by
  dsimp only [Gen.hostOps0_1]
  after_results_simp
  simp only [TRef.ofBuf, TRef.toBuf, cast_eq]
  rfl

/-- The second stretch does not write the third stretch's index vector. -/
private theorem take0_v3 (W : Valuation τ sig (Elt F)) :
    after (hostOps0_1 (F := F)) W (Proc.devRef .tc main_v3) = W (Proc.devRef .tc main_v3) := by
  dsimp only [Gen.hostOps0_1]
  after_results_simp

/-- The second stretch does not write the node features. -/
private theorem take0_arg0 (W : Valuation τ sig (Elt F)) :
    after (hostOps0_1 (F := F)) W (Proc.devRef .tc main_arg0) = W (Proc.devRef .tc main_arg0) := by
  dsimp only [Gen.hostOps0_1]
  after_results_simp

/-- The third stretch leaves the masked gather of the node features at its index vector. -/
private theorem take1_v5 (W : Valuation τ sig (Elt F)) :
    after (hostOps0_2 (F := F)) W (Proc.devRef .tc main_v5)
      = nodeRows (W (Proc.devRef .tc main_arg0)) (W (Proc.devRef .tc main_v3)) := by
  dsimp only [Gen.hostOps0_2]
  after_results_simp
  simp only [TRef.ofBuf, TRef.toBuf, cast_eq]
  rfl

/-- The third stretch does not write the second stretch's result. -/
private theorem take1_v4 (W : Valuation τ sig (Elt F)) :
    after (hostOps0_2 (F := F)) W (Proc.devRef .tc main_v4) = W (Proc.devRef .tc main_v4) := by
  dsimp only [Gen.hostOps0_2]
  after_results_simp

/-- The last operation lays the two gathered arrays side by side along the channel axis. -/
private theorem cat_v6 (W : Valuation τ sig (Elt F)) :
    after (hostOps0_3 (F := F)) W (Proc.devRef .tc main_v6)
      = concatenate S120000x9x128 2
          [⟨S120000x9x64, W (Proc.devRef .tc main_v4)⟩, ⟨S120000x9x64, W (Proc.devRef .tc main_v5)⟩]
          concatenates_S120000x9x64_S120000x9x64_S120000x9x128_d2 := by
  dsimp only [Gen.hostOps0_3]
  after_results

end Stretches

/-- What the tiled call's third operand holds when the call is entered: the edge messages of the launched node
    features and edge list. -/
theorem V_main_v6 (m : (ℓ : Loc nD τ sig) → Buf (Elt F) ℓ) (c : Dev nD) :
    Gen.V m c main_v6 = msg (m ((c : Thread nD τ).loc main_arg0)) (m ((c : Thread nD τ).loc main_arg4)) := by
  dsimp only [Gen.V]
  simp only [List.flatten_cons, List.flatten_nil, List.append_nil]
  rw [StableHlo.after_append, StableHlo.after_append, StableHlo.after_append, cat_v6, take1_v5, take1_v4, take0_v4,
    take0_v3, take0_arg0, rows_v1, rows_v3, rows_arg0]
  rfl

/-! ## Where every index word is a node number, the mask keeps every gathered row -/

/-- A left fold by `and` from 1 over words that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from 1 of an array of 1s is 1 at every index. -/
private theorem reduce_andi_one {s t u : Shape} {axes : List (Fin s.rank)} (p : s.Idx → BitVec 1)
    (init : u.Idx → BitVec 1) (hr : s.ReducesTo axes t) (hu : 0 < u.numel) (hp : ∀ i, p i = 1#1)
    (hi : init (Shape.Idx.first hu) = 1#1) (j : t.Idx) : Host.reduce IntOp.andi p init hr hu j = 1#1 := by
  rw [Host.reduce_eq_foldl, hi]
  exact foldl_andi_one p hp _

/-- A word that reads, signed, as a number from 0 is not wrapped. -/
private theorem wrap_word (w : BitVec 32) (h0 : 0 ≤ w.toInt) :
    Scalar.select (IntOp.cmpi .slt w 0#32) (IntOp.addi w 20000#32) w = w := by
  have hc : IntOp.cmpi .slt w 0#32 = 0#1 := by
    refine ValueIdx.eq_zero_of_ne_one fun h1 => ?_
    rw [IntOp.cmpi_slt, show (0#32 : BitVec 32).toInt = 0 from by decide] at h1
    omega
  rw [hc, ValueIdx.select_zero]

/-- A word that reads, signed, as a number in 0..19999 passes both comparisons of the mask. -/
private theorem inRange_word (w : BitVec 32) (h0 : 0 ≤ w.toInt) (h1 : w.toInt < 20000) :
    IntOp.andi (IntOp.cmpi .sge w 0#32) (IntOp.cmpi .sle w 19999#32) = 1#1 := by
  rw [IntOp.andi_eq_one, IntOp.cmpi_sge, IntOp.cmpi_sle, show (0#32 : BitVec 32).toInt = 0 from by decide,
    show (19999#32 : BitVec 32).toInt = 19999 from by decide]
  omega

/-- The wrapped index column holds, in each row, a word of the index vector wrapped by 20000. -/
private theorem wrapIdx_apply (idx : IVec S120000 32) (i : S120000x1.Idx) :
    ∃ e : S120000.Idx,
      wrapIdx idx i = Scalar.select (IntOp.cmpi .slt (idx e) 0#32) (IntOp.addi (idx e) 20000#32) (idx e) :=
  ⟨_, rfl⟩

/-- Where every index word is in 0..19999 the mask is 1 at every edge. -/
private theorem inRange_one (idx : IVec S120000 32) (h : ∀ e : S120000.Idx, 0 ≤ (idx e).toInt ∧ (idx e).toInt < 20000)
    (e : S120000.Idx) : inRange (wrapIdx idx) e = 1#1 := by
  unfold inRange
  refine reduce_andi_one _ _ _ _ (fun i => ?_) rfl e
  obtain ⟨k, hk⟩ := wrapIdx_apply idx i
  rw [wrap_word _ (h k).1] at hk
  show IntOp.andi (IntOp.cmpi .sge (wrapIdx idx i) 0#32) (IntOp.cmpi .sle (wrapIdx idx i) 19999#32) = 1#1
  rw [hk]
  exact inRange_word _ (h k).1 (h k).2

/-- Where every index word is in 0..19999 the masked gather is the gather. -/
private theorem nodeRows_eq (x : FVec F S20000x9x64 .f32) (idx : IVec S120000 32)
    (h : ∀ e : S120000.Idx, 0 ≤ (idx e).toInt ∧ (idx e).toInt < 20000) :
    nodeRows x idx = Host.gather gather_S20000x9x64_S120000x1_S120000x9x64_12_0_n_n_0_1_1964 x (wrapIdx idx) := by
  funext i
  unfold nodeRows
  rw [ValueIdx.select_apply]
  have hm : broadcastInDim S120000x9x64 ![0] bcast_S120000_S120000x9x64_0 (inRange (wrapIdx idx)) i = 1#1 := by
    unfold broadcastInDim
    exact inRange_one idx h _
  rw [hm, ValueIdx.select_one]

/-- A word of a row of the edge list is a word of the edge list. -/
private theorem edgeRow_apply (r : Nat) (hs : S2x120000.Slices ![r, 0] S1x120000) (ei : IVec S2x120000 32)
    (e : S120000.Idx) :
    ∃ j : S2x120000.Idx, edgeRow r hs ei e = ei j :=
  ⟨_, rfl⟩

/-- Where every word of the edge list is a node number 0..19999, no gathered row is replaced, and the kernel
    program's messages are the reference's. -/
theorem msg_eq_ref (x : FVec F S20000x9x64 .f32) (ei : IVec S2x120000 32)
    (h : ∀ j : S2x120000.Idx, 0 ≤ (ei j).toInt ∧ (ei j).toInt < 20000) :
    msg x ei = Cert.ReferenceIdeal.RefValue.msg x ei := by
  have hrow : ∀ (r : Nat) (hs : S2x120000.Slices ![r, 0] S1x120000) (e : S120000.Idx),
      0 ≤ (edgeRow r hs ei e).toInt ∧ (edgeRow r hs ei e).toInt < 20000 := fun r hs e => by
    obtain ⟨j, hj⟩ := edgeRow_apply r hs ei e
    rw [hj]
    exact h j
  unfold msg
  rw [nodeRows_eq x _ (hrow 0 _), nodeRows_eq x _ (hrow 1 _)]
  rfl

end Cert.KernelIdeal.KerValue

end
-- ==== Proof.Spec.lean ====
/-
  The edge-wise rotate / rotate-back / gate result as ONE function of the arrays, index by index.

  For an edge e, a coefficient l in 0..8 and a channel c in 0..127, with W and Winv the edge's two 9 x 9 matrices and
  X its 9 x 128 message block:
    back e l c = sum over k of Winv[e, l, k] * (sum over k' of W[e, k, k'] * X[e, k', c]),
  the message rotated by W and rotated back by Winv, each product written as the plain sum it is on the extended reals.
  The result at l = 0 is back * sigmoid back (the SiLU of the scalar coefficient); at l > 0 it is back times the sigmoid
  of the gating scalar of the coefficient's degree: the 256 gating scalars of an edge are two runs of 128 channels, and
  the eight l > 0 coefficients take run 0, 1, 0, 1, 0, 1, 1, 1 in order. The sigmoid is 1 / (1 + exp (-x)) with the
  extended reals' conventions at the infinities.

  Everything is stated for an arbitrary number n of edges, so that the same function describes one tile of 600 edges
  and the whole array of 120000.
-/
import Idealize.ShloMosaic.PureOps.Ideal
import Idealize.ShloMosaic.Lib.ValueIdx

noncomputable section

open scoped BigOperators

namespace Cert.RotGate

open Idealize.ShloMosaic Idealize.ShloMosaic.ValueIdx

/-- Which of the two runs of gating scalars each of the eight l > 0 coefficients takes. -/
def expand : Fin 8 → Fin 2 := ![0, 1, 0, 1, 0, 1, 1, 1]

/-- The gating column coefficient q + 1 takes at channel c: channel c of run `expand q`. -/
def gateCol (q : Fin 8) (c : Fin 128) : Fin 256 :=
  ⟨128 * (expand q).val + c.val, by have := (expand q).isLt; have := c.isLt; omega⟩

/-- The message rotated by W, then rotated back by Winv, at edge e, coefficient l, channel c. -/
def back (n : Nat) (W Winv : (⟨3, ![n, 9, 9]⟩ : Shape).Idx → EReal) (X : (⟨3, ![n, 9, 128]⟩ : Shape).Idx → EReal)
    (e : Fin n) (l : Fin 9) (c : Fin 128) : EReal :=
  ∑ k : Fin 9, Winv (ix3 e l k) * ∑ k' : Fin 9, W (ix3 e k k') * X (ix3 e k' c)

/-- The result at edge e, coefficient l, channel c: SiLU of the rotated-back scalar coefficient, the gated rotated-back
    value on the others. -/
def res (n : Nat) (W Winv : (⟨3, ![n, 9, 9]⟩ : Shape).Idx → EReal) (X : (⟨3, ![n, 9, 128]⟩ : Shape).Idx → EReal)
    (g : (⟨2, ![n, 256]⟩ : Shape).Idx → EReal) (e : Fin n) (l : Fin 9) (c : Fin 128) : EReal :=
  if h : l.val = 0 then back n W Winv X e l c * Ideal.logistic (back n W Winv X e l c)
  else back n W Winv X e l c * Ideal.logistic (g (ix2 e (gateCol ⟨l.val - 1, by have := l.isLt; omega⟩ c)))

/-- The same as an array: the result at every index. -/
def resV (n : Nat) (W Winv : (⟨3, ![n, 9, 9]⟩ : Shape).Idx → EReal) (X : (⟨3, ![n, 9, 128]⟩ : Shape).Idx → EReal)
    (g : (⟨2, ![n, 256]⟩ : Shape).Idx → EReal) : (⟨3, ![n, 9, 128]⟩ : Shape).Idx → EReal :=
  fun i => res n W Winv X g (i 0) (i 1) (i 2)

theorem resV_ix3 (n : Nat) (W Winv : (⟨3, ![n, 9, 9]⟩ : Shape).Idx → EReal) (X : (⟨3, ![n, 9, 128]⟩ : Shape).Idx → EReal)
    (g : (⟨2, ![n, 256]⟩ : Shape).Idx → EReal) (e : Fin n) (l : Fin 9) (c : Fin 128) :
    resV n W Winv X g (ix3 e l c) = res n W Winv X g e l c := rfl

end Cert.RotGate

end
-- ==== Proof.KerRotated.lean ====
/-
  One tile's two matrix products read at an index: each product into the zero accumulator is the plain sum over the
  nine coefficients of the operands' products, so the rotated-back message is the nested double sum.
-/
import proofs.«407570_j9036611190826_2_alg».proof.KernelIdeal
import proofs.«407570_j9036611190826_2_alg».proof.Proof.Gen.KernelIdeal
import proofs.«407570_j9036611190826_2_alg».proof.Proof.Spec
import Idealize.ShloMosaic.PureOps.Ideal.Laws
import Idealize.ShloMosaic.Lib.ValueIdx
import Idealize.ShloMosaic.Lib.Pipeline.Value

noncomputable section

namespace Cert.KernelIdeal.KerValue

open Cert.KernelIdeal Cert.KernelIdeal.Gen Idealize.ShloMosaic Idealize.ShloMosaic.TcCoe Idealize.ShloMosaic.ValueIdx

open scoped BigOperators

/-! ## The operand indices of the batched product, axis by axis

  The product contracts the left operand's last axis with the right operand's middle axis, axis 0 of both being the
  batch axis. At result index i = (e, l, c) and contraction position q the left operand is read at (e, l, q) and the
  right one at (e, q, c). -/

/-- Left operand, batch axis: the result's first coordinate. -/
private theorem lhs_tile_0 (i : S600x9x128.Idx) (q : dot_S600x9x9_S600x9x128_S600x9x128_2_1_1_2_0_0.contr.Idx) :
    (dot_S600x9x9_S600x9x128_S600x9x128_2_1_1_2_0_0.lhsIdx i q 0).val = (i 0).val := by
  unfold DotDims.lhsIdx
  rw [dif_pos (show (0 : Fin S600x9x9.rank) ∈ dot_S600x9x9_S600x9x128_S600x9x128_2_1_1_2_0_0.lhsBatch by decide)]
  rfl

/-- Left operand, row axis: the result's second coordinate. -/
private theorem lhs_tile_1 (i : S600x9x128.Idx) (q : dot_S600x9x9_S600x9x128_S600x9x128_2_1_1_2_0_0.contr.Idx) :
    (dot_S600x9x9_S600x9x128_S600x9x128_2_1_1_2_0_0.lhsIdx i q 1).val = (i 1).val := by
  unfold DotDims.lhsIdx
  rw [dif_neg (show ¬(1 : Fin S600x9x9.rank) ∈ dot_S600x9x9_S600x9x128_S600x9x128_2_1_1_2_0_0.lhsBatch by decide),
    dif_pos (show (1 : Fin S600x9x9.rank) ∈ dot_S600x9x9_S600x9x128_S600x9x128_2_1_1_2_0_0.lhsNonContracting by decide)]
  rfl

/-- Left operand, contracted axis: the contraction position. -/
private theorem lhs_tile_2 (i : S600x9x128.Idx) (q : dot_S600x9x9_S600x9x128_S600x9x128_2_1_1_2_0_0.contr.Idx) :
    (dot_S600x9x9_S600x9x128_S600x9x128_2_1_1_2_0_0.lhsIdx i q 2).val = (q ⟨0, by decide⟩).val :=
  dot_S600x9x9_S600x9x128_S600x9x128_2_1_1_2_0_0.lhsIdx_val_of_single rfl i q

/-- Right operand, batch axis: the result's first coordinate. -/
private theorem rhs_tile_0 (i : S600x9x128.Idx) (q : dot_S600x9x9_S600x9x128_S600x9x128_2_1_1_2_0_0.contr.Idx) :
    (dot_S600x9x9_S600x9x128_S600x9x128_2_1_1_2_0_0.rhsIdx i q 0).val = (i 0).val := by
  unfold DotDims.rhsIdx
  rw [dif_pos (show (0 : Fin S600x9x128.rank) ∈ dot_S600x9x9_S600x9x128_S600x9x128_2_1_1_2_0_0.rhsBatch by decide)]
  rfl

/-- Right operand, contracted axis: the contraction position. -/
private theorem rhs_tile_1 (i : S600x9x128.Idx) (q : dot_S600x9x9_S600x9x128_S600x9x128_2_1_1_2_0_0.contr.Idx) :
    (dot_S600x9x9_S600x9x128_S600x9x128_2_1_1_2_0_0.rhsIdx i q 1).val = (q ⟨0, by decide⟩).val :=
  dot_S600x9x9_S600x9x128_S600x9x128_2_1_1_2_0_0.rhsIdx_val_of_single rfl i q

/-- Right operand, column axis: the result's third coordinate. -/
private theorem rhs_tile_2 (i : S600x9x128.Idx) (q : dot_S600x9x9_S600x9x128_S600x9x128_2_1_1_2_0_0.contr.Idx) :
    (dot_S600x9x9_S600x9x128_S600x9x128_2_1_1_2_0_0.rhsIdx i q 2).val = (i 2).val := by
  unfold DotDims.rhsIdx
  rw [dif_neg (show ¬(2 : Fin S600x9x128.rank) ∈ dot_S600x9x9_S600x9x128_S600x9x128_2_1_1_2_0_0.rhsBatch by decide),
    dif_pos (show (2 : Fin S600x9x128.rank) ∈ dot_S600x9x9_S600x9x128_S600x9x128_2_1_1_2_0_0.rhsNonContracting by decide)]
  rfl

/-- One batched product into the zero accumulator, read at edge p, row l, column c: the sum over the nine positions k
    of the left operand at (p, l, k) times the right operand at (p, k, c). The sum over the one-axis contraction index
    set is carried to the sum over 0..8 by the bijection of that index set with its one coordinate. -/
theorem tile_dot_apply (L : FVec Ideal S600x9x9 .bf16) (R : FVec Ideal S600x9x128 .bf16)
    (p : Fin 600) (l : Fin 9) (c : Fin 128) :
    matmul dot_S600x9x9_S600x9x128_S600x9x128_2_1_1_2_0_0 none L R (constant S600x9x128 .f32 0x00000000#32) (ix3 p l c)
      = ∑ k : Fin 9, L (ix3 p l k) * R (ix3 p k c) := by
  simp only [matmul]
  rw [Ideal.matmul_constant_zero_apply,
    ← Equiv.sum_comp (contrEquiv1 dot_S600x9x9_S600x9x128_S600x9x128_2_1_1_2_0_0 9 rfl rfl).symm]
  refine Finset.sum_congr rfl fun k _ => ?_
  have hk := contrEquiv1_symm_val dot_S600x9x9_S600x9x128_S600x9x128_2_1_1_2_0_0 9 rfl rfl k
  have el : dot_S600x9x9_S600x9x128_S600x9x128_2_1_1_2_0_0.lhsIdx (ix3 p l c)
      ((contrEquiv1 dot_S600x9x9_S600x9x128_S600x9x128_2_1_1_2_0_0 9 rfl rfl).symm k) = ix3 p l k :=
    funext fun a => Fin.ext (by
      match a with
      | ⟨0, _⟩ => exact lhs_tile_0 _ _
      | ⟨1, _⟩ => exact lhs_tile_1 _ _
      | ⟨2, _⟩ => exact (lhs_tile_2 _ _).trans hk)
  have er : dot_S600x9x9_S600x9x128_S600x9x128_2_1_1_2_0_0.rhsIdx (ix3 p l c)
      ((contrEquiv1 dot_S600x9x9_S600x9x128_S600x9x128_2_1_1_2_0_0 9 rfl rfl).symm k) = ix3 p k c :=
    funext fun a => Fin.ext (by
      match a with
      | ⟨0, _⟩ => exact rhs_tile_0 _ _
      | ⟨1, _⟩ => exact (rhs_tile_1 _ _).trans hk
      | ⟨2, _⟩ => exact rhs_tile_2 _ _)
  rw [el, er]

/-- One tile's two matrix products as the body writes them (operands narrowed to bf16, which changes nothing on the
    extended reals; each product into a zero accumulator), read at edge p of the tile, coefficient l, channel c: the
    two nested sums over the nine coefficients. -/
theorem tile_rotated_apply (x0 x1 : FVec Ideal S600x9x9 .f32) (x2 : FVec Ideal S600x9x128 .f32)
    (p : Fin 600) (l : Fin 9) (c : Fin 128) :
    matmul dot_S600x9x9_S600x9x128_S600x9x128_2_1_1_2_0_0 none (truncf .bf16 x1 bitsLt_bf16_f32)
        (truncf .bf16
          (matmul dot_S600x9x9_S600x9x128_S600x9x128_2_1_1_2_0_0 none (truncf .bf16 x0 bitsLt_bf16_f32)
            (truncf .bf16 (shapeCast S600x9x128 x2 shapeCasts_S600x9x128_S600x9x128) bitsLt_bf16_f32)
            (constant S600x9x128 .f32 0x00000000#32))
          bitsLt_bf16_f32)
        (constant S600x9x128 .f32 0x00000000#32) (ix3 p l c)
      = Cert.RotGate.back 600 x0 x1 x2 p l c := by
  refine (tile_dot_apply _ _ p l c).trans ?_
  unfold Cert.RotGate.back
  refine Finset.sum_congr rfl fun k _ => ?_
  rw [truncf_apply, truncf_apply]
  refine congrArg (x1 (ix3 p l k) * ·) ?_
  refine (tile_dot_apply _ _ p k c).trans ?_
  refine Finset.sum_congr rfl fun k' _ => ?_
  rw [truncf_apply, truncf_apply, shapeCast_self]

end Cert.KernelIdeal.KerValue

end
-- ==== Proof.KerPayload.lean ====
/-
  What the kernel body stores for one tile of 600 edges is the edge-wise function `resV` at 600 edges of the tile's
  blocks, index by index.

  The stored value joins two pieces along the coefficient axis: coefficient 0, the rotated-back value times its own
  sigmoid, and coefficients 1..8, the rotated-back value times a gate. The gates are eight copies, laid along the
  coefficient axis in the order 0, 1, 0, 1, 0, 1, 1, 1, of the sigmoids of the two halves (columns 0..127 and 128..255)
  of the tile's gating scalars, each half given a unit coefficient axis. So the gate of coefficient q + 1 at channel c
  is the sigmoid of the gating scalar in column 128 * (half of q) + c.
-/
import proofs.«407570_j9036611190826_2_alg».proof.Proof.Gen.KernelIdeal.Skeleton
import proofs.«407570_j9036611190826_2_alg».proof.Proof.KerRotated
import proofs.«407570_j9036611190826_2_alg».proof.Proof.Spec
import Idealize.ShloMosaic.Lib.ValueIdx
import Idealize.ShloMosaic.Lib.Pipeline.Value

noncomputable section

namespace Cert.KernelIdeal.KerValue

open Cert.KernelIdeal Cert.KernelIdeal.Gen Idealize.ShloMosaic Idealize.ShloMosaic.TcCoe Idealize.ShloMosaic.ValueIdx

/-- The tile's message rotated and rotated back, as the body computes it. -/
def tileRot (x0 x1 : FVec Ideal S600x9x9 .f32) (x2 : FVec Ideal S600x9x128 .f32) : FVec Ideal S600x9x128 .f32 :=
  matmul dot_S600x9x9_S600x9x128_S600x9x128_2_1_1_2_0_0 none (truncf .bf16 x1 bitsLt_bf16_f32)
    (truncf .bf16
      (matmul dot_S600x9x9_S600x9x128_S600x9x128_2_1_1_2_0_0 none (truncf .bf16 x0 bitsLt_bf16_f32)
        (truncf .bf16 (shapeCast S600x9x128 x2 shapeCasts_S600x9x128_S600x9x128) bitsLt_bf16_f32)
        (constant S600x9x128 .f32 0x00000000#32))
      bitsLt_bf16_f32)
    (constant S600x9x128 .f32 0x00000000#32)

theorem tileRot_apply (x0 x1 : FVec Ideal S600x9x9 .f32) (x2 : FVec Ideal S600x9x128 .f32) (p : Fin 600) (l : Fin 9) (c : Fin 128) :
    tileRot x0 x1 x2 (ix3 p l c) = Cert.RotGate.back 600 x0 x1 x2 p l c :=
  tile_rotated_apply x0 x1 x2 p l c

/-- One half of the gating scalars' sigmoids with a unit coefficient axis. -/
def halfGate (v : FVec Ideal S600x128 .f32) : FVec Ideal S600x1x128 .f32 :=
  shapeCast S600x1x128 (logistic v) shapeCasts_S600x128_S600x1x128

theorem halfGate_apply (v : FVec Ideal S600x128 .f32) (p : Fin 600) (c : Fin 128) :
    halfGate v (ix3 p (0 : Fin 1) c) = Ideal.logistic (v (ix2 p c)) :=
  shapeCast_apply (logistic v) shapeCasts_S600x128_S600x1x128 (ix3 p (0 : Fin 1) c) (ix2 p c)
    (by rw [Shape.rowMajor_val_two, Shape.rowMajor_val_three]; show p.val * 128 + c.val = (p.val * 1 + 0) * 128 + c.val; omega)

/-- The eight gates laid along the coefficient axis. -/
def gate8 (a b : FVec Ideal S600x1x128 .f32) : FVec Ideal S600x8x128 .f32 :=
  concatenate S600x8x128 1 [⟨S600x1x128, a⟩, ⟨S600x1x128, b⟩, ⟨S600x1x128, a⟩, ⟨S600x1x128, b⟩, ⟨S600x1x128, a⟩, ⟨S600x1x128, b⟩, ⟨S600x1x128, b⟩, ⟨S600x1x128, b⟩]
    concatenates_S600x1x128_S600x1x128_S600x1x128_S600x1x128_S600x1x128_S600x1x128_S600x1x128_S600x1x128_S600x8x128_d1

/-- The body's stored value, with its three parts named. -/
theorem payload_def (x0 x1 : FVec Ideal S600x9x9 .f32) (x2 : FVec Ideal S600x9x128 .f32) (v10 v13 : FVec Ideal S600x128 .f32) :
    k0_pay1 (F := Ideal) x0 x2 x1 v10 v13
      = concatenate S600x9x128 1
          [⟨S600x1x128, mulf (extractStridedSlice S600x1x128 ![0, 0, 0] (tileRot x0 x1 x2) slices_S600x9x128_o0_0_0_S600x1x128)
              (logistic (extractStridedSlice S600x1x128 ![0, 0, 0] (tileRot x0 x1 x2) slices_S600x9x128_o0_0_0_S600x1x128))⟩,
           ⟨S600x8x128, mulf (extractStridedSlice S600x8x128 ![0, 1, 0] (tileRot x0 x1 x2) slices_S600x9x128_o0_1_0_S600x8x128)
              (gate8 (halfGate v10) (halfGate v13))⟩]
          concatenates_S600x1x128_S600x8x128_S600x9x128_d1 := rfl

/-- The rotated-back tile read through the slice that keeps coefficient 0. -/
theorem tslice0_apply (R : FVec Ideal S600x9x128 .f32) (p : Fin 600) (c : Fin 128) :
    extractStridedSlice S600x1x128 ![0, 0, 0] R slices_S600x9x128_o0_0_0_S600x1x128 (ix3 p (0 : Fin 1) c)
      = R (ix3 p (0 : Fin 9) c) :=
  extractStridedSlice_apply ![0, 0, 0] R slices_S600x9x128_o0_0_0_S600x1x128 (ix3 p (0 : Fin 1) c) (ix3 p (0 : Fin 9) c)
    (fun a => by match a with | ⟨0, _⟩ => exact (Nat.zero_add _).symm | ⟨1, _⟩ => rfl | ⟨2, _⟩ => exact (Nat.zero_add _).symm)

/-- The rotated-back tile read through the slice that keeps coefficients 1..8: entry q is coefficient q + 1. -/
theorem tslice1_apply (R : FVec Ideal S600x9x128 .f32) (p : Fin 600) (q : Fin 8) (c : Fin 128) :
    extractStridedSlice S600x8x128 ![0, 1, 0] R slices_S600x9x128_o0_1_0_S600x8x128 (ix3 p q c)
      = R (ix3 p (⟨q.val + 1, by have := q.isLt; omega⟩ : Fin 9) c) :=
  extractStridedSlice_apply ![0, 1, 0] R slices_S600x9x128_o0_1_0_S600x8x128 (ix3 p q c)
    (ix3 p (⟨q.val + 1, by have := q.isLt; omega⟩ : Fin 9) c)
    (fun a => by match a with | ⟨0, _⟩ => exact (Nat.zero_add _).symm | ⟨1, _⟩ => exact Nat.add_comm _ _ | ⟨2, _⟩ => exact (Nat.zero_add _).symm)

/-- Piece k of the eight, read at its one coefficient. -/
theorem gate8_piece (a b : FVec Ideal S600x1x128 .f32) (p : Fin 600) (c : Fin 128) (k : Nat) (hk : k < 8)
    (x : FVec Ideal S600x1x128 .f32)
    (hx : [(⟨S600x1x128, a⟩ : (s : Shape) × (s.Idx → Ideal .f32)), ⟨S600x1x128, b⟩, ⟨S600x1x128, a⟩, ⟨S600x1x128, b⟩, ⟨S600x1x128, a⟩, ⟨S600x1x128, b⟩, ⟨S600x1x128, b⟩, ⟨S600x1x128, b⟩][k]'(by simpa using hk) = ⟨S600x1x128, x⟩)
    (hpre : ((([(⟨S600x1x128, a⟩ : (s : Shape) × (s.Idx → Ideal .f32)), ⟨S600x1x128, b⟩, ⟨S600x1x128, a⟩, ⟨S600x1x128, b⟩, ⟨S600x1x128, a⟩, ⟨S600x1x128, b⟩, ⟨S600x1x128, b⟩, ⟨S600x1x128, b⟩].take k).map (·.1)).map
        fun s => if h : s.rank = S600x8x128.rank then s.size ((1 : Fin 3).cast h.symm) else 0).sum = k) :
    gate8 a b (ix3 p (⟨k, hk⟩ : Fin 8) c) = x (ix3 p (0 : Fin 1) c) :=
  concatenate_apply_piece (t := S600x8x128) (1 : Fin 3)
    [⟨S600x1x128, a⟩, ⟨S600x1x128, b⟩, ⟨S600x1x128, a⟩, ⟨S600x1x128, b⟩, ⟨S600x1x128, a⟩, ⟨S600x1x128, b⟩, ⟨S600x1x128, b⟩, ⟨S600x1x128, b⟩]
    concatenates_S600x1x128_S600x1x128_S600x1x128_S600x1x128_S600x1x128_S600x1x128_S600x1x128_S600x1x128_S600x8x128_d1
    (ix3 p (⟨k, hk⟩ : Fin 8) c) k (by simpa using hk) S600x1x128 x hx rfl k hpre (ix3 p (0 : Fin 1) c)
    (fun b hb => by
      match b with
      | ⟨0, _⟩ => rfl
      | ⟨1, _⟩ => exact absurd rfl hb
      | ⟨2, _⟩ => rfl)
    (Nat.add_zero k)

/-- The gate of coefficient q + 1: the first half's where the coefficient takes run 0, the second half's where run 1. -/
theorem gate8_apply (a b : FVec Ideal S600x1x128 .f32) (p : Fin 600) (q : Fin 8) (c : Fin 128) :
    gate8 a b (ix3 p q c) = if (Cert.RotGate.expand q).val = 0 then a (ix3 p (0 : Fin 1) c) else b (ix3 p (0 : Fin 1) c) := by
  match q with
  | ⟨0, h⟩ => exact gate8_piece a b p c 0 h a rfl rfl
  | ⟨1, h⟩ => exact gate8_piece a b p c 1 h b rfl rfl
  | ⟨2, h⟩ => exact gate8_piece a b p c 2 h a rfl rfl
  | ⟨3, h⟩ => exact gate8_piece a b p c 3 h b rfl rfl
  | ⟨4, h⟩ => exact gate8_piece a b p c 4 h a rfl rfl
  | ⟨5, h⟩ => exact gate8_piece a b p c 5 h b rfl rfl
  | ⟨6, h⟩ => exact gate8_piece a b p c 6 h b rfl rfl
  | ⟨7, h⟩ => exact gate8_piece a b p c 7 h b rfl rfl

/-- What the body stores for a tile is `resV` at 600 edges of the tile's blocks, where the two loaded halves of the
    gating block are its columns 0..127 and 128..255. -/
theorem payload_eq (x0 x1 : FVec Ideal S600x9x9 .f32) (x2 : FVec Ideal S600x9x128 .f32) (x3 : FVec Ideal S600x256 .f32)
    (v10 v13 : FVec Ideal S600x128 .f32)
    (h10 : ∀ (p : Fin 600) (c : Fin 128), v10 (ix2 p c) = x3 (ix2 p (⟨c.val, by have := c.isLt; omega⟩ : Fin 256)))
    (h13 : ∀ (p : Fin 600) (c : Fin 128), v13 (ix2 p c) = x3 (ix2 p (⟨128 + c.val, by have := c.isLt; omega⟩ : Fin 256))) :
    k0_pay1 (F := Ideal) x0 x2 x1 v10 v13 = Cert.RotGate.resV 600 x0 x1 x2 x3 := by
  rw [payload_def]
  funext i
  obtain ⟨p, l, c, rfl⟩ : ∃ (p : Fin 600) (l : Fin 9) (c : Fin 128), i = ix3 p l c := ⟨i 0, i 1, i 2, eq_ix3 i⟩
  rw [Cert.RotGate.resV_ix3]
  unfold Cert.RotGate.res
  by_cases hl : l.val = 0
  · rw [dif_pos hl]
    have hl0 : l = (0 : Fin 9) := Fin.ext hl
    subst hl0
    refine (concatenate_pair_apply_left (t := S600x9x128) (s₁ := S600x1x128) (s₂ := S600x8x128) (1 : Fin 3) _ _
      concatenates_S600x1x128_S600x8x128_S600x9x128_d1 (ix3 p (0 : Fin 9) c) rfl (ix3 p (0 : Fin 1) c)
      (fun b => by match b with | ⟨0, _⟩ => rfl | ⟨1, _⟩ => rfl | ⟨2, _⟩ => rfl)).trans ?_
    rw [mulf_apply]
    show _ * Ideal.logistic _ = _
    rw [tslice0_apply, tileRot_apply]
  · rw [dif_neg hl]
    have hq : l.val - 1 < 8 := by have := l.isLt; omega
    refine (concatenate_pair_apply_right (t := S600x9x128) (s₁ := S600x1x128) (s₂ := S600x8x128) (1 : Fin 3) _ _
      concatenates_S600x1x128_S600x8x128_S600x9x128_d1 (ix3 p l c) rfl rfl (ix3 p (⟨l.val - 1, hq⟩ : Fin 8) c)
      (fun b hb => by
        match b with
        | ⟨0, _⟩ => rfl
        | ⟨1, _⟩ => exact absurd rfl hb
        | ⟨2, _⟩ => rfl)
      (by show l.val - 1 + 1 = l.val; omega)).trans ?_
    rw [mulf_apply, tslice1_apply, tileRot_apply, gate8_apply]
    have e1 : (⟨l.val - 1 + 1, by omega⟩ : Fin 9) = l := Fin.ext (by show l.val - 1 + 1 = l.val; omega)
    rw [e1]
    congr 1
    -- the gate: the half the coefficient's run names, at the column of that run
    generalize (⟨l.val - 1, hq⟩ : Fin 8) = q
    have hr : (Cert.RotGate.expand q).val = 0 ∨ (Cert.RotGate.expand q).val = 1 := by
      have := (Cert.RotGate.expand q).isLt; omega
    rcases hr with hr | hr
    · rw [if_pos hr, halfGate_apply, h10]
      congr 3
      exact Fin.ext (by show c.val = 128 * (Cert.RotGate.expand q).val + c.val; omega)
    · rw [if_neg (by omega), halfGate_apply, h13]
      congr 3
      exact Fin.ext (by show 128 + c.val = 128 * (Cert.RotGate.expand q).val + c.val; omega)

end Cert.KernelIdeal.KerValue

end
-- ==== Proof.KerValue.lean ====
/-
  The kernel program's result array after the run is the edge-wise function `resV` at 120000 edges of the arrays the
  tiled call finds: the two matrix arrays and the gating scalars as launched, and the edge messages the host operations
  before the call compute.

  The grid has 200 points; at point t every window's block is the t-th run of 600 edges of its array (the other axes
  whole). What point t writes back is the body's stored value of the four input blocks, which is `resV` at 600 edges of
  those blocks; and `resV` looks at one edge at a time, so `resV` of the t-th blocks is the t-th block of `resV` of the
  arrays. The 200 blocks cover the result array (edge i lies in block i / 600), so the array ends at `resV` of the arrays.
-/
import proofs.«407570_j9036611190826_2_alg».proof.Proof.Gen.KernelIdeal.Value
import proofs.«407570_j9036611190826_2_alg».proof.Proof.KerPayload
import proofs.«407570_j9036611190826_2_alg».proof.Proof.KerMsg
import proofs.«407570_j9036611190826_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen Cert.KernelIdeal.Value

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the grid: at point t every window's block index is t on the edge axis and 0
    on the others. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

theorem t_lt (t : Fin cfg0.N) : t.val < 200 := lt_of_lt_of_eq t.isLt N_0

/-- Edge p of tile t is edge 600 t + p of the array. -/
def edgeOf (t : Fin cfg0.N) (p : Fin 600) : Fin 120000 :=
  ⟨600 * t.val + p.val, by have := t_lt t; have := p.isLt; omega⟩

/-- The first matrix window's block at point t, entry (p, a, b), is the array's entry at edge 600 t + p. -/
theorem iblk0_apply (c : Dev nD) (t : Fin cfg0.N) (p : Fin 600) (a b : Fin 9) :
    (iblk m c 0 t : Vec Ideal S600x9x9 .f32) (ix3 p a b)
      = (V m c main_arg1 : S120000x9x9.Idx → Elt Ideal .f32) (ix3 (edgeOf t p) a b) := by
  obtain ⟨⟨e0, e1, e2⟩, -⟩ := idx_facts t
  unfold iblk
  rw [View.read_apply]
  refine congrArg (V m c main_arg1 : S120000x9x9.Idx → Elt Ideal .f32) ?_
  funext d
  apply Fin.ext
  match d with
  | ⟨0, _⟩ => show win0_0.index t (0 : Fin 3) * 600 + 1 * p.val = 600 * t.val + p.val; rw [e0]; omega
  | ⟨1, _⟩ => show win0_0.index t (1 : Fin 3) * 9 + 1 * a.val = a.val; rw [e1]; omega
  | ⟨2, _⟩ => show win0_0.index t (2 : Fin 3) * 9 + 1 * b.val = b.val; rw [e2]; omega

/-- The second matrix window's block at point t, entry (p, a, b), is the array's entry at edge 600 t + p. -/
theorem iblk1_apply (c : Dev nD) (t : Fin cfg0.N) (p : Fin 600) (a b : Fin 9) :
    (iblk m c 1 t : Vec Ideal S600x9x9 .f32) (ix3 p a b)
      = (V m c main_arg2 : S120000x9x9.Idx → Elt Ideal .f32) (ix3 (edgeOf t p) a b) := by
  obtain ⟨-, ⟨e0, e1, e2⟩, -⟩ := idx_facts t
  unfold iblk
  rw [View.read_apply]
  refine congrArg (V m c main_arg2 : S120000x9x9.Idx → Elt Ideal .f32) ?_
  funext d
  apply Fin.ext
  match d with
  | ⟨0, _⟩ => show win0_1.index t (0 : Fin 3) * 600 + 1 * p.val = 600 * t.val + p.val; rw [e0]; omega
  | ⟨1, _⟩ => show win0_1.index t (1 : Fin 3) * 9 + 1 * a.val = a.val; rw [e1]; omega
  | ⟨2, _⟩ => show win0_1.index t (2 : Fin 3) * 9 + 1 * b.val = b.val; rw [e2]; omega

/-- The message window's block at point t, entry (p, a, ch), is the message array's entry at edge 600 t + p. -/
theorem iblk2_apply (c : Dev nD) (t : Fin cfg0.N) (p : Fin 600) (a : Fin 9) (ch : Fin 128) :
    (iblk m c 2 t : Vec Ideal S600x9x128 .f32) (ix3 p a ch)
      = (V m c main_v6 : S120000x9x128.Idx → Elt Ideal .f32) (ix3 (edgeOf t p) a ch) := by
  obtain ⟨-, -, ⟨e0, e1, e2⟩, -⟩ := idx_facts t
  unfold iblk
  rw [View.read_apply]
  refine congrArg (V m c main_v6 : S120000x9x128.Idx → Elt Ideal .f32) ?_
  funext d
  apply Fin.ext
  match d with
  | ⟨0, _⟩ => show win0_2.index t (0 : Fin 3) * 600 + 1 * p.val = 600 * t.val + p.val; rw [e0]; omega
  | ⟨1, _⟩ => show win0_2.index t (1 : Fin 3) * 9 + 1 * a.val = a.val; rw [e1]; omega
  | ⟨2, _⟩ => show win0_2.index t (2 : Fin 3) * 128 + 1 * ch.val = ch.val; rw [e2]; omega

/-- The gating window's block at point t, entry (p, col), is the array's entry at edge 600 t + p. -/
theorem iblk3_apply (c : Dev nD) (t : Fin cfg0.N) (p : Fin 600) (col : Fin 256) :
    (iblk m c 3 t : Vec Ideal S600x256 .f32) (ix2 p col)
      = (V m c main_arg3 : S120000x256.Idx → Elt Ideal .f32) (ix2 (edgeOf t p) col) := by
  obtain ⟨-, -, -, ⟨e0, e1⟩, -⟩ := idx_facts t
  unfold iblk
  rw [View.read_apply]
  refine congrArg (V m c main_arg3 : S120000x256.Idx → Elt Ideal .f32) ?_
  funext d
  apply Fin.ext
  match d with
  | ⟨0, _⟩ => show win0_3.index t (0 : Fin 2) * 600 + 1 * p.val = 600 * t.val + p.val; rw [e0]; omega
  | ⟨1, _⟩ => show win0_3.index t (1 : Fin 2) * 256 + 1 * col.val = col.val; rw [e1]; omega

/-- The first loaded half of a gating block is its columns 0..127. -/
theorem half0_apply (x3 : Vec Ideal S600x256 .f32) (p : Fin 600) (ch : Fin 128) :
    View.ld x3 r0_2 (ix2 p ch) = x3 (ix2 p (⟨ch.val, by have := ch.isLt; omega⟩ : Fin 256)) := by
  show x3 (r0_2.emb (ix2 p ch)) = _
  refine congrArg x3 ?_
  funext d
  apply Fin.ext
  match d with
  | ⟨0, _⟩ => show 0 + 1 * p.val = p.val; omega
  | ⟨1, _⟩ => show 0 + 1 * ch.val = ch.val; omega

/-- The second loaded half of a gating block is its columns 128..255. -/
theorem half1_apply (x3 : Vec Ideal S600x256 .f32) (p : Fin 600) (ch : Fin 128) :
    View.ld x3 r0_3 (ix2 p ch) = x3 (ix2 p (⟨128 + ch.val, by have := ch.isLt; omega⟩ : Fin 256)) := by
  show x3 (r0_3.emb (ix2 p ch)) = _
  refine congrArg x3 ?_
  funext d
  apply Fin.ext
  match d with
  | ⟨0, _⟩ => show 0 + 1 * p.val = p.val; omega
  | ⟨1, _⟩ => show 128 + 1 * ch.val = 128 + ch.val; omega

/-- `resV` looks at one edge at a time: where four blocks of 600 edges are the edges 600 t + p of four arrays, `resV` of
    the blocks at edge p is `resV` of the arrays at edge 600 t + p. -/
theorem res_block (W Winv : S120000x9x9.Idx → EReal) (X : S120000x9x128.Idx → EReal) (g : S120000x256.Idx → EReal)
    (w wi : S600x9x9.Idx → EReal) (x : S600x9x128.Idx → EReal) (gg : S600x256.Idx → EReal) (f : Fin 600 → Fin 120000)
    (hw : ∀ p a b, w (ix3 p a b) = W (ix3 (f p) a b)) (hwi : ∀ p a b, wi (ix3 p a b) = Winv (ix3 (f p) a b))
    (hx : ∀ p a ch, x (ix3 p a ch) = X (ix3 (f p) a ch)) (hg : ∀ p col, gg (ix2 p col) = g (ix2 (f p) col))
    (p : Fin 600) (l : Fin 9) (ch : Fin 128) :
    Cert.RotGate.res 600 w wi x gg p l ch = Cert.RotGate.res 120000 W Winv X g (f p) l ch := by
  have hb : ∀ l' : Fin 9, Cert.RotGate.back 600 w wi x p l' ch = Cert.RotGate.back 120000 W Winv X (f p) l' ch := by
    intro l'
    unfold Cert.RotGate.back
    refine Finset.sum_congr rfl fun k _ => ?_
    rw [hwi]
    refine congrArg _ (Finset.sum_congr rfl fun k' _ => ?_)
    rw [hw, hx]
  unfold Cert.RotGate.res
  rw [hb l]
  by_cases hl : l.val = 0
  · rw [dif_pos hl, dif_pos hl]
  · rw [dif_neg hl, dif_neg hl, hg]

/-- The arrays the tiled call finds, and `resV` of them: what the result array ends holding. -/
abbrev G (c : Dev nD) : S120000x9x128.Idx → Elt Ideal .f32 :=
  Cert.RotGate.resV 120000 (V m c main_arg1 : S120000x9x9.Idx → Elt Ideal .f32) (V m c main_arg2 : S120000x9x9.Idx → Elt Ideal .f32)
    (V m c main_v6 : S120000x9x128.Idx → Elt Ideal .f32) (V m c main_arg3 : S120000x256.Idx → Elt Ideal .f32)

/-- WHAT POINT t WRITES BACK is block t of `G`. -/
theorem flushed_eq (c : Dev nD) (t : Fin cfg0.N) :
    (dats m 0 c).flushed 4 t = ((cfg0.win 4).blk t).view.read (Elt Ideal) (G m c) := by
  rw [flushed4]
  unfold out0_4
  rw [View.canon_unit_zero hz3]
  simp only [View.ld_unit_zero (S := S600x9x9) hz3, View.ld_unit_zero (S := S600x9x128) hz3]
  rw [payload_eq (iblk m c 0 t) (iblk m c 1 t) (iblk m c 2 t) (iblk m c 3 t) _ _
    (half0_apply (iblk m c 3 t)) (half1_apply (iblk m c 3 t))]
  obtain ⟨-, -, -, -, ⟨e0, e1, e2⟩⟩ := idx_facts t
  funext j
  obtain ⟨p, l, ch, rfl⟩ : ∃ (p : Fin 600) (l : Fin 9) (ch : Fin 128), j = ix3 p l ch := ⟨j 0, j 1, j 2, eq_ix3 j⟩
  show Cert.RotGate.resV 600 _ _ _ _ (ix3 p l ch) = G m c (((cfg0.win 4).blk t).view.emb (ix3 p l ch))
  have hemb : ((cfg0.win 4).blk t).view.emb (ix3 p l ch) = (ix3 (edgeOf t p) l ch : S120000x9x128.Idx) := by
    funext d
    apply Fin.ext
    match d with
    | ⟨0, _⟩ => show win0_4.index t (0 : Fin 3) * 600 + 1 * p.val = 600 * t.val + p.val; rw [e0]; omega
    | ⟨1, _⟩ => show win0_4.index t (1 : Fin 3) * 9 + 1 * l.val = l.val; rw [e1]; omega
    | ⟨2, _⟩ => show win0_4.index t (2 : Fin 3) * 128 + 1 * ch.val = ch.val; rw [e2]; omega
  rw [hemb]
  show Cert.RotGate.res 600 _ _ _ _ p l ch = Cert.RotGate.res 120000 _ _ _ _ (edgeOf t p) l ch
  exact res_block _ _ _ _ _ _ _ _ (edgeOf t) (iblk0_apply m c t) (iblk1_apply m c t) (iblk2_apply m c t) (iblk3_apply m c t) p l ch

/-- An index of the result array is in point t's block iff each coordinate is in the block's range on its axis. -/
theorem mem_blk (t : Fin cfg0.N) (i : S120000x9x128.Idx) :
    i ∈ ((cfg0.win 4).blk t).view.set ↔ ∀ a : Fin 3, win0_4.index t a * S600x9x128.size a ≤ (i a).val ∧ (i a).val < win0_4.index t a * S600x9x128.size a + S600x9x128.size a := by
  show i ∈ ((View.whole main_v7).slice (win0_4.rect t)).set ↔ _
  rw [View.set_slice_whole, Rect.mem_set_unit]
  exact Iff.rfl

/-- Every index of the result array is in some point's block: edge i is in block i / 600. -/
theorem cover (i : S120000x9x128.Idx) : ∃ t : Fin cfg0.N, (cfg0.win 4).flush t = true ∧ i ∈ ((cfg0.win 4).blk t).view.set := by
  have hi0 : (i 0).val < 120000 := (i 0).isLt
  have hi1 : (i 1).val < 9 := (i 1).isLt
  have hi2 : (i 2).val < 128 := (i 2).isLt
  let t : Fin cfg0.N := ⟨(i 0).val / 600, by rw [show cfg0.N = 200 from N_0]; omega⟩
  obtain ⟨-, -, -, -, ⟨e0, e1, e2⟩⟩ := idx_facts t
  have ht : t.val = (i 0).val / 600 := rfl
  refine ⟨t, flush0_4 t, ?_⟩
  rw [mem_blk]
  intro a
  match a with
  | ⟨0, _⟩ => show win0_4.index t (0 : Fin 3) * 600 ≤ (i 0).val ∧ (i 0).val < win0_4.index t (0 : Fin 3) * 600 + 600; rw [e0, ht]; omega
  | ⟨1, _⟩ => show win0_4.index t (1 : Fin 3) * 9 ≤ (i 1).val ∧ (i 1).val < win0_4.index t (1 : Fin 3) * 9 + 9; rw [e1]; omega
  | ⟨2, _⟩ => show win0_4.index t (2 : Fin 3) * 128 ≤ (i 2).val ∧ (i 2).val < win0_4.index t (2 : Fin 3) * 128 + 128; rw [e2]; omega

/-- THE RESULT ARRAY after the run is `G`. -/
theorem final (c : Dev nD) : (dats m 0 c).arrAt 4 cfg0.N = G m c :=
  (dats m 0 c).arrAt_eq_of_cover 4 (G m c) (fun t _ => flushed_eq m c t) cover

/-- The run, read: the result array at `resV` of the launched matrices and gating scalars and of the edge messages of
    the launched node features and edge list; the arguments unchanged. -/
theorem run : θ_run defs (onTc (τ := τ) (main (F := Ideal))) ⟨m, fun _ => 0, ρ⟩ fun r => ∀ c : Dev nD,
      r.2.mem ((c : Thread nD τ).loc main_v7)
          = Cert.RotGate.resV 120000 (m ((c : Thread nD τ).loc main_arg1)) (m ((c : Thread nD τ).loc main_arg2))
              (msg (F := Ideal) (m ((c : Thread nD τ).loc main_arg0)) (m ((c : Thread nD τ).loc main_arg4))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      show Cert.RotGate.resV 120000 (V m c main_arg1) (V m c main_arg2) (V m c main_v6) (V m c main_arg3) = _
      rw [V_main_arg1, V_main_arg2, V_main_arg3, V_main_v6])), (h c).2⟩)
    (run_blocks m ρ)

end Cert.KernelIdeal.KerValue

end
-- ==== Proof.RefRun.lean ====
/-
  The run of the reference program. Its fifty-seven host operations (the nine of the SiLU call written out at the
  call, over the call's own buffers) are one straight line, cut into five consecutive groups: the edge messages;
  the two batched products; the sigmoid gates; coefficient 0 and its SiLU; coefficients 1..8 gated and the join.
  For each group: what its last buffer holds afterwards as a function of the contents it found, and which buffers
  it leaves as they were. Composed in order, the result buffer holds `tail` of the arguments over their `msg`,
  and no operation writes an argument.
-/
import proofs.«407570_j9036611190826_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Twenty-four operations: the table of gate runs, then per edge row the slice, the wrap of negative indices and the gather, then the join of the two gathers along the channels. -/
abbrev opsMsg : List (HloOp τ sig (Elt F)) :=
  [ StableHlo.nullary main_c (fun i => lit0 (S8.rowMajor i)),
    StableHlo.unary main_arg4 main_v0 ((extractStridedSlice S1x120000 ![0, 0] · slices_S2x120000_S1x120000_0_0) : (⟨S2x120000, .i32⟩ : BufTy).Contents (Elt F) → (⟨S1x120000, .i32⟩ : BufTy).Contents (Elt F)),
    StableHlo.reshape main_v0 main_v1 rfl shapeCasts_S1x120000_S120000,
    StableHlo.nullary main_c_0 (constantI S_ 32 0#32),
    StableHlo.unary main_c_0 main_v2 (broadcastInDim S120000 ![] bcast_S_S120000 : (⟨S_, .i32⟩ : BufTy).Contents (Elt F) → (⟨S120000, .i32⟩ : BufTy).Contents (Elt F)),
    StableHlo.binary main_v1 main_v2 main_v3 (cmpi .slt : (⟨S120000, .i32⟩ : BufTy).Contents (Elt F) → (⟨S120000, .i32⟩ : BufTy).Contents (Elt F) → (⟨S120000, .i1⟩ : BufTy).Contents (Elt F)),
    StableHlo.nullary main_c_1 (constantI S_ 32 20000#32),
    StableHlo.unary main_c_1 main_v4 (broadcastInDim S120000 ![] bcast_S_S120000 : (⟨S_, .i32⟩ : BufTy).Contents (Elt F) → (⟨S120000, .i32⟩ : BufTy).Contents (Elt F)),
    StableHlo.binary main_v1 main_v4 main_v5 (addi : (⟨S120000, .i32⟩ : BufTy).Contents (Elt F) → (⟨S120000, .i32⟩ : BufTy).Contents (Elt F) → (⟨S120000, .i32⟩ : BufTy).Contents (Elt F)),
    StableHlo.ternary main_v3 main_v5 main_v1 main_v6 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v6 main_v7 (broadcastInDim S120000x1 ![0] bcast_S120000_S120000x1_0 : (⟨S120000, .i32⟩ : BufTy).Contents (Elt F) → (⟨S120000x1, .i32⟩ : BufTy).Contents (Elt F)),
    StableHlo.binary main_arg0 main_v7 main_v8 ((fun x i => Host.gather gather_S20000x9x64_S120000x1_S120000x9x64_12_0_n_n_0_1_1964 x i) : (⟨S20000x9x64, .f32⟩ : BufTy).Contents (Elt F) → (⟨S120000x1, .i32⟩ : BufTy).Contents (Elt F) → (⟨S120000x9x64, .f32⟩ : BufTy).Contents (Elt F)),
    StableHlo.unary main_arg4 main_v9 ((extractStridedSlice S1x120000 ![1, 0] · slices_S2x120000_S1x120000_1_0) : (⟨S2x120000, .i32⟩ : BufTy).Contents (Elt F) → (⟨S1x120000, .i32⟩ : BufTy).Contents (Elt F)),
    StableHlo.reshape main_v9 main_v10 rfl shapeCasts_S1x120000_S120000,
    StableHlo.nullary main_c_2 (constantI S_ 32 0#32),
    StableHlo.unary main_c_2 main_v11 (broadcastInDim S120000 ![] bcast_S_S120000 : (⟨S_, .i32⟩ : BufTy).Contents (Elt F) → (⟨S120000, .i32⟩ : BufTy).Contents (Elt F)),
    StableHlo.binary main_v10 main_v11 main_v12 (cmpi .slt : (⟨S120000, .i32⟩ : BufTy).Contents (Elt F) → (⟨S120000, .i32⟩ : BufTy).Contents (Elt F) → (⟨S120000, .i1⟩ : BufTy).Contents (Elt F)),
    StableHlo.nullary main_c_3 (constantI S_ 32 20000#32),
    StableHlo.unary main_c_3 main_v13 (broadcastInDim S120000 ![] bcast_S_S120000 : (⟨S_, .i32⟩ : BufTy).Contents (Elt F) → (⟨S120000, .i32⟩ : BufTy).Contents (Elt F)),
    StableHlo.binary main_v10 main_v13 main_v14 (addi : (⟨S120000, .i32⟩ : BufTy).Contents (Elt F) → (⟨S120000, .i32⟩ : BufTy).Contents (Elt F) → (⟨S120000, .i32⟩ : BufTy).Contents (Elt F)),
    StableHlo.ternary main_v12 main_v14 main_v10 main_v15 (select : (⟨S120000, .i1⟩ : BufTy).Contents (Elt F) → (⟨S120000, .i32⟩ : BufTy).Contents (Elt F) → (⟨S120000, .i32⟩ : BufTy).Contents (Elt F) → (⟨S120000, .i32⟩ : BufTy).Contents (Elt F)),
    StableHlo.unary main_v15 main_v16 (broadcastInDim S120000x1 ![0] bcast_S120000_S120000x1_0 : (⟨S120000, .i32⟩ : BufTy).Contents (Elt F) → (⟨S120000x1, .i32⟩ : BufTy).Contents (Elt F)),
    StableHlo.binary main_arg0 main_v16 main_v17 ((fun x i => Host.gather gather_S20000x9x64_S120000x1_S120000x9x64_12_0_n_n_0_1_1964 x i) : (⟨S20000x9x64, .f32⟩ : BufTy).Contents (Elt F) → (⟨S120000x1, .i32⟩ : BufTy).Contents (Elt F) → (⟨S120000x9x64, .f32⟩ : BufTy).Contents (Elt F)),
    StableHlo.binary main_v8 main_v17 main_v18 ((fun a b => concatenate S120000x9x128 2 [⟨S120000x9x64, a⟩, ⟨S120000x9x64, b⟩] concatenates_S120000x9x64_S120000x9x64_S120000x9x128_d2) : (⟨S120000x9x64, .f32⟩ : BufTy).Contents (Elt F) → (⟨S120000x9x64, .f32⟩ : BufTy).Contents (Elt F) → (⟨S120000x9x128, .f32⟩ : BufTy).Contents (Elt F)) ]

/-- The two batched products. -/
abbrev opsRot : List (HloOp τ sig (Elt F)) :=
  [ StableHlo.binary main_arg1 main_v18 main_v19 ((fun l r => Host.dotGeneral dot_S120000x9x9_S120000x9x128_S120000x9x128_2_1_1_2_0_0 none l r) : (⟨S120000x9x9, .f32⟩ : BufTy).Contents (Elt F) → (⟨S120000x9x128, .f32⟩ : BufTy).Contents (Elt F) → (⟨S120000x9x128, .f32⟩ : BufTy).Contents (Elt F)),
    StableHlo.binary main_arg2 main_v19 main_v20 ((fun l r => Host.dotGeneral dot_S120000x9x9_S120000x9x128_S120000x9x128_2_1_1_2_0_0 none l r) : (⟨S120000x9x9, .f32⟩ : BufTy).Contents (Elt F) → (⟨S120000x9x128, .f32⟩ : BufTy).Contents (Elt F) → (⟨S120000x9x128, .f32⟩ : BufTy).Contents (Elt F)) ]

/-- Eighteen operations: the sigmoid of the gating scalars, its split into two runs of channels, the wrapped table, the gather of the runs. -/
abbrev opsGate : List (HloOp τ sig (Elt F)) :=
  [ StableHlo.unary main_arg3 main_v21 (Host.negf : (⟨S120000x256, .f32⟩ : BufTy).Contents (Elt F) → (⟨S120000x256, .f32⟩ : BufTy).Contents (Elt F)),
    StableHlo.unary main_v21 main_v22 (Host.exp : (⟨S120000x256, .f32⟩ : BufTy).Contents (Elt F) → (⟨S120000x256, .f32⟩ : BufTy).Contents (Elt F)),
    StableHlo.nullary main_cst (constant S_ .f32 0x3F800000#32),
    StableHlo.unary main_cst main_v23 (broadcastInDim S120000x256 ![] bcast_S_S120000x256 : (⟨S_, .f32⟩ : BufTy).Contents (Elt F) → (⟨S120000x256, .f32⟩ : BufTy).Contents (Elt F)),
    StableHlo.binary main_v23 main_v22 main_v24 (addf : (⟨S120000x256, .f32⟩ : BufTy).Contents (Elt F) → (⟨S120000x256, .f32⟩ : BufTy).Contents (Elt F) → (⟨S120000x256, .f32⟩ : BufTy).Contents (Elt F)),
    StableHlo.nullary main_cst_4 (constant S_ .f32 0x3F800000#32),
    StableHlo.unary main_cst_4 main_v25 (broadcastInDim S120000x256 ![] bcast_S_S120000x256 : (⟨S_, .f32⟩ : BufTy).Contents (Elt F) → (⟨S120000x256, .f32⟩ : BufTy).Contents (Elt F)),
    StableHlo.binary main_v25 main_v24 main_v26 (Host.divf : (⟨S120000x256, .f32⟩ : BufTy).Contents (Elt F) → (⟨S120000x256, .f32⟩ : BufTy).Contents (Elt F) → (⟨S120000x256, .f32⟩ : BufTy).Contents (Elt F)),
    StableHlo.reshape main_v26 main_v27 rfl shapeCasts_S120000x256_S120000x2x128,
    StableHlo.nullary main_c_5 (constantI S_ 32 0#32),
    StableHlo.unary main_c_5 main_v28 (broadcastInDim S8 ![] bcast_S_S8 : (⟨S_, .i32⟩ : BufTy).Contents (Elt F) → (⟨S8, .i32⟩ : BufTy).Contents (Elt F)),
    StableHlo.binary main_c main_v28 main_v29 (cmpi .slt : (⟨S8, .i32⟩ : BufTy).Contents (Elt F) → (⟨S8, .i32⟩ : BufTy).Contents (Elt F) → (⟨S8, .i1⟩ : BufTy).Contents (Elt F)),
    StableHlo.nullary main_c_6 (constantI S_ 32 2#32),
    StableHlo.unary main_c_6 main_v30 (broadcastInDim S8 ![] bcast_S_S8 : (⟨S_, .i32⟩ : BufTy).Contents (Elt F) → (⟨S8, .i32⟩ : BufTy).Contents (Elt F)),
    StableHlo.binary main_c main_v30 main_v31 (addi : (⟨S8, .i32⟩ : BufTy).Contents (Elt F) → (⟨S8, .i32⟩ : BufTy).Contents (Elt F) → (⟨S8, .i32⟩ : BufTy).Contents (Elt F)),
    StableHlo.ternary main_v29 main_v31 main_c main_v32 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v32 main_v33 (broadcastInDim S8x1 ![0] bcast_S8_S8x1_0 : (⟨S8, .i32⟩ : BufTy).Contents (Elt F) → (⟨S8x1, .i32⟩ : BufTy).Contents (Elt F)),
    StableHlo.binary main_v27 main_v33 main_v34 ((fun x i => Host.gather gather_S120000x2x128_S8x1_S120000x8x128_02_1_n_n_1_1_1200001128 x i) : (⟨S120000x2x128, .f32⟩ : BufTy).Contents (Elt F) → (⟨S8x1, .i32⟩ : BufTy).Contents (Elt F) → (⟨S120000x8x128, .f32⟩ : BufTy).Contents (Elt F)) ]

/-- Coefficient 0 of the rotated message and the nine operations of its SiLU. -/
abbrev opsSilu : List (HloOp τ sig (Elt F)) :=
  [ StableHlo.unary main_v20 main_v35 ((extractStridedSlice S120000x1x128 ![0, 0, 0] · slices_S120000x9x128_S120000x1x128_0_0_0) : (⟨S120000x9x128, .f32⟩ : BufTy).Contents (Elt F) → (⟨S120000x1x128, .f32⟩ : BufTy).Contents (Elt F)),
    StableHlo.TRef.unary (.of main_v35) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S120000x1x128 ![] bcast_S_S120000x1x128),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S120000x1x128 ![] bcast_S_S120000x1x128),
    StableHlo.TRef.binary main_call0.v4 main_call0.v3 main_call0.v5 Host.divf,
    StableHlo.TRef.binary (.of main_v35) main_call0.v5 main_call0.v6 mulf ]

/-- Coefficients 1..8, their product with the gates, the join along the coefficient axis. -/
abbrev opsJoin : List (HloOp τ sig (Elt F)) :=
  [ StableHlo.unary main_v20 main_v37 ((extractStridedSlice S120000x8x128 ![0, 1, 0] · slices_S120000x9x128_S120000x8x128_0_1_0) : (⟨S120000x9x128, .f32⟩ : BufTy).Contents (Elt F) → (⟨S120000x8x128, .f32⟩ : BufTy).Contents (Elt F)),
    StableHlo.binary main_v37 main_v34 main_v38 (mulf : (⟨S120000x8x128, .f32⟩ : BufTy).Contents (Elt F) → (⟨S120000x8x128, .f32⟩ : BufTy).Contents (Elt F) → (⟨S120000x8x128, .f32⟩ : BufTy).Contents (Elt F)),
    StableHlo.binary main_v36 main_v38 main_v39 ((fun a b => concatenate S120000x9x128 1 [⟨S120000x1x128, a⟩, ⟨S120000x8x128, b⟩] concatenates_S120000x1x128_S120000x8x128_S120000x9x128_d1) : (⟨S120000x1x128, .f32⟩ : BufTy).Contents (Elt F) → (⟨S120000x8x128, .f32⟩ : BufTy).Contents (Elt F) → (⟨S120000x9x128, .f32⟩ : BufTy).Contents (Elt F)) ]

/-- The program's fifty-seven operations, in order. -/
abbrev ops : List (HloOp τ sig (Elt F)) := opsMsg ++ opsRot ++ opsGate ++ opsSilu ++ opsJoin

set_option maxRecDepth 1024 in
/-- The program is that straight line: the call replaced by its body, the sequencing reassociated. -/
theorem main_eq (c : Dev nD) : main (F := F) c = seq ops := by
  simp only [main, fn_silu.body, ops, opsMsg, opsRot, opsGate, opsSilu, opsJoin, seq_append, seq, bind_assoc, pure_bind]

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide
/-- Every operation reads and writes buffers of the TensorCore only. -/
theorem ops_sub : (ops : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub ..⟩

/-- The contents after two lines run in turn are the contents after the second, from the contents after the first. -/
private theorem after_app : ∀ (l₁ l₂ : List (HloOp τ sig (Elt F))) (V : Valuation τ sig (Elt F)),
    after (l₁ ++ l₂) V = after l₂ (after l₁ V)
  | [], _, _ => rfl
  | op :: l₁, l₂, V => after_app l₁ l₂ (op.result V)

/-- After the first group the joined buffer holds the edge messages of the node features and the edge list it found. -/
theorem msg_eq (W : Valuation τ sig (Elt F)) :
    after opsMsg W (main_v18 : DevRef τ sig) = msg (W (main_arg0 : DevRef τ sig)) (W (main_arg4 : DevRef τ sig)) := by
  after_results
  rfl

/-- The first group writes no argument. -/
theorem msg_keeps (W : Valuation τ sig (Elt F)) (r : Ref sig .tc)
    (hr : r ∈ [main_arg0, main_arg1, main_arg2, main_arg3, main_arg4]) :
    after opsMsg W (r : DevRef τ sig) = W (r : DevRef τ sig) := by
  simp only [List.mem_cons, List.not_mem_nil, or_false] at hr
  rcases hr with rfl | rfl | rfl | rfl | rfl <;> after_results

/-- The first group leaves the table of gate runs at its eight literal words. -/
theorem msg_table (W : Valuation τ sig (Elt F)) :
    after opsMsg W (main_c : DevRef τ sig) = fun i => lit0 (S8.rowMajor i) := by
  after_results
  rfl

/-- After the products: the messages found, multiplied by the first matrix and then by the second. -/
theorem rot_eq (W : Valuation τ sig (Elt F)) :
    after opsRot W (main_v20 : DevRef τ sig)
      = rotated (W (main_arg1 : DevRef τ sig)) (W (main_arg2 : DevRef τ sig)) (W (main_v18 : DevRef τ sig)) := by
  after_results
  rfl

/-- The products write no argument and not the table. -/
theorem rot_keeps (W : Valuation τ sig (Elt F)) (r : Ref sig .tc)
    (hr : r ∈ [main_arg0, main_arg1, main_arg2, main_arg3, main_arg4, main_c]) :
    after opsRot W (r : DevRef τ sig) = W (r : DevRef τ sig) := by
  simp only [List.mem_cons, List.not_mem_nil, or_false] at hr
  rcases hr with rfl | rfl | rfl | rfl | rfl | rfl <;> after_results

/-- After the third group, from contents where the table holds its literal words: the gates of the gating scalars found. -/
theorem gates_eq (W : Valuation τ sig (Elt F)) (hc : W (main_c : DevRef τ sig) = fun i => lit0 (S8.rowMajor i)) :
    after opsGate W (main_v34 : DevRef τ sig) = gates (W (main_arg3 : DevRef τ sig)) := by
  after_results
  rw [hc]
  rfl

/-- The third group writes no argument and not the rotated messages. -/
theorem gate_keeps (W : Valuation τ sig (Elt F)) (r : Ref sig .tc)
    (hr : r ∈ [main_arg0, main_arg1, main_arg2, main_arg3, main_arg4, main_v20]) :
    after opsGate W (r : DevRef τ sig) = W (r : DevRef τ sig) := by
  simp only [List.mem_cons, List.not_mem_nil, or_false] at hr
  rcases hr with rfl | rfl | rfl | rfl | rfl | rfl <;> after_results

/-- After the fourth group: coefficient 0 of the rotated messages found, times its sigmoid 1 / (1 + exp (-v)). -/
theorem silu_eq (W : Valuation τ sig (Elt F)) :
    after opsSilu W (main_v36 : DevRef τ sig)
      = mulf (extractStridedSlice S120000x1x128 ![0, 0, 0] (W (main_v20 : DevRef τ sig)) slices_S120000x9x128_S120000x1x128_0_0_0)
          (hostSigmoid S120000x1x128 bcast_S_S120000x1x128
            (extractStridedSlice S120000x1x128 ![0, 0, 0] (W (main_v20 : DevRef τ sig)) slices_S120000x9x128_S120000x1x128_0_0_0)) := by
  after_results
  rfl

/-- The fourth group writes no argument, not the rotated messages and not the gates. -/
theorem silu_keeps (W : Valuation τ sig (Elt F)) (r : Ref sig .tc)
    (hr : r ∈ [main_arg0, main_arg1, main_arg2, main_arg3, main_arg4, main_v20, main_v34]) :
    after opsSilu W (r : DevRef τ sig) = W (r : DevRef τ sig) := by
  simp only [List.mem_cons, List.not_mem_nil, or_false] at hr
  rcases hr with rfl | rfl | rfl | rfl | rfl | rfl | rfl <;> after_results

/-- After the last group: the SiLU found, joined along the coefficient axis with coefficients 1..8 of the rotated messages times the gates found. -/
theorem join_eq (W : Valuation τ sig (Elt F)) :
    after opsJoin W (main_v39 : DevRef τ sig)
      = concatenate S120000x9x128 1
          [⟨S120000x1x128, W (main_v36 : DevRef τ sig)⟩,
           ⟨S120000x8x128, mulf (extractStridedSlice S120000x8x128 ![0, 1, 0] (W (main_v20 : DevRef τ sig)) slices_S120000x9x128_S120000x8x128_0_1_0)
              (W (main_v34 : DevRef τ sig))⟩]
          concatenates_S120000x1x128_S120000x8x128_S120000x9x128_d1 := by
  after_results

/-- The last group writes no argument. -/
theorem join_keeps (W : Valuation τ sig (Elt F)) (r : Ref sig .tc)
    (hr : r ∈ [main_arg0, main_arg1, main_arg2, main_arg3, main_arg4]) :
    after opsJoin W (r : DevRef τ sig) = W (r : DevRef τ sig) := by
  simp only [List.mem_cons, List.not_mem_nil, or_false] at hr
  rcases hr with rfl | rfl | rfl | rfl | rfl <;> after_results

/-- The contents after the whole line, group by group. -/
theorem after_ops (V : Valuation τ sig (Elt F)) :
    after ops V = after opsJoin (after opsSilu (after opsGate (after opsRot (after opsMsg V)))) := by
  simp only [ops, after_app]

/-- The result buffer after the whole line: each group's value read at what the groups before it left — the rotated messages and the gates
    carried unchanged over the groups that do not write them, the arguments over all — which is `tail` over `msg` once those are unfolded. -/
theorem out_eq (V : Valuation τ sig (Elt F)) :
    after ops V (main_v39 : DevRef τ sig)
      = tail (V (main_arg1 : DevRef τ sig)) (V (main_arg2 : DevRef τ sig)) (V (main_arg3 : DevRef τ sig))
          (msg (V (main_arg0 : DevRef τ sig)) (V (main_arg4 : DevRef τ sig))) := by
  have hc : after opsRot (after opsMsg V) (main_c : DevRef τ sig) = fun i => lit0 (S8.rowMajor i) :=
    (rot_keeps _ main_c (by decide)).trans (msg_table V)
  rw [after_ops, join_eq, silu_eq, silu_keeps _ main_v20 (by decide), silu_keeps _ main_v34 (by decide),
    gate_keeps _ main_v20 (by decide), gates_eq _ hc, rot_eq, rot_keeps _ main_arg3 (by decide),
    msg_eq, msg_keeps _ main_arg1 (by decide), msg_keeps _ main_arg2 (by decide), msg_keeps _ main_arg3 (by decide)]
  rfl

/-- An argument after the whole line holds what it held: no group writes it. -/
theorem arg_eq (V : Valuation τ sig (Elt F)) (r : Ref sig .tc)
    (hr : r ∈ [main_arg0, main_arg1, main_arg2, main_arg3, main_arg4]) :
    after ops V (r : DevRef τ sig) = V (r : DevRef τ sig) := by
  simp only [List.mem_cons, List.not_mem_nil, or_false] at hr
  rcases hr with rfl | rfl | rfl | rfl | rfl <;>
    (rw [after_ops, join_keeps, silu_keeps, gate_keeps, rot_keeps, msg_keeps] <;> decide)

/-- Every weakly fair execution of the reference terminates with its result at `tail` of the arguments over their
    `msg`, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
          = tail (m ((c.tc : Thread nD τ).loc main_arg1)) (m ((c.tc : Thread nD τ).loc main_arg2)) (m ((c.tc : Thread nD τ).loc main_arg3))
              (msg (m ((c.tc : Thread nD τ).loc main_arg0)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v39).trans (out_eq _),
      (h c main_arg0).trans (arg_eq _ _ (by decide)),
      (h c main_arg1).trans (arg_eq _ _ (by decide)),
      (h c main_arg2).trans (arg_eq _ _ (by decide)),
      (h c main_arg3).trans (arg_eq _ _ (by decide)),
      (h c main_arg4).trans (arg_eq _ _ (by decide))⟩)
    (run_seq scopedRefs_eq scopedSems_eq defs main (fun _ => ops) main_eq (fun _ => ops_sub) m ρ)

end Cert.ReferenceIdeal.RefValue

end
-- ==== Proof.RefRotated.lean ====
/-
  The reference's rotation and rotation back, read at an index.

  Each of the two batched products contracts the nine coefficients of one edge: at edge e, row l and channel c the
  product of L (e x 9 x 9) with R (e x 9 x 128) is the sum over k of L[e, l, k] * R[e, k, c] on the extended reals.
  Applied twice, the outer product with Winv over the inner product with W, this is
    sum over k of Winv[e, l, k] * (sum over k' of W[e, k, k'] * X[e, k', c]).
-/
import proofs.«407570_j9036611190826_2_alg».proof.Proof.RefTerm
import proofs.«407570_j9036611190826_2_alg».proof.Proof.Spec
import Idealize.ShloMosaic.PureOps.Ideal.Laws
import Idealize.ShloMosaic.Lib.ValueIdx
import Idealize.ShloMosaic.Lib.StackMember

noncomputable section

namespace Cert.ReferenceIdeal.RefValue

open Cert.ReferenceIdeal Cert.ReferenceIdeal.Gen Idealize.ShloMosaic Idealize.ShloMosaic.TcCoe Idealize.ShloMosaic.ValueIdx

/-- One batched product (batch axis 0 on both sides, the left operand's axis 2 contracted with the right operand's
    axis 1) read at edge e, row l, channel c: the sum over the nine contracted coefficients k of L[e, l, k] * R[e, k, c].
    The batch axis carries e on both operands, the free axes carry l and c, the contracted axes carry k. -/
theorem dot_apply (L : FVec Ideal S120000x9x9 .f32) (R : FVec Ideal S120000x9x128 .f32)
    (e : Fin 120000) (l : Fin 9) (c : Fin 128) :
    Host.dotGeneral dot_S120000x9x9_S120000x9x128_S120000x9x128_2_1_1_2_0_0 none L R (ix3 e l c)
      = ∑ k : Fin 9, L (ix3 e l k) * R (ix3 e k c) :=
  StackMember.dotGeneral_stack_apply (G := 120000) (m := 9) (n := 128) (k := 9)
    dot_S120000x9x9_S120000x9x128_S120000x9x128_2_1_1_2_0_0.wf none L R e l c

/-- The reference's two batched products, read at edge e, coefficient l, channel c, are the two nested sums over the
    nine coefficients. -/
theorem rotated_apply (W Winv : FVec Ideal S120000x9x9 .f32) (X : FVec Ideal S120000x9x128 .f32)
    (e : Fin 120000) (l : Fin 9) (c : Fin 128) :
    rotated (F := Ideal) W Winv X (ix3 e l c) = Cert.RotGate.back 120000 W Winv X e l c := by
  unfold rotated Cert.RotGate.back
  -- the outer product: the sum over k of Winv[e, l, k] times the inner product at (e, k, c)
  refine (dot_apply Winv _ e l c).trans ?_
  -- term by term, the inner product at (e, k, c) is the sum over k' of W[e, k, k'] * X[e, k', c]
  refine Finset.sum_congr rfl fun k _ => ?_
  exact congrArg (fun t => Winv (ix3 e l k) * t) (dot_apply W X e k c)

end Cert.ReferenceIdeal.RefValue

end
-- ==== Proof.RefGates.lean ====
/-
  The sigmoid gates of the reference, read entry by entry.

  First: the quotient 1 / (1 + exp (-x)) taken at every entry of an array, with the word 0x3F800000 for the one, is the
  sigmoid of that entry on the extended reals. Second: the gate of coefficient q + 1 (q in 0..7), channel c, edge e. The
  256 gating scalars of an edge, read as 2 runs of 128 channels, are picked per coefficient by the table
  0, 1, 0, 1, 0, 1, 1, 1; no entry of the table is negative, so the wrap by 2 leaves it as it is, and every entry is at
  most 1, so the clamp into the two runs leaves it as it is. Entry (e, r, c) of the 2 x 128 layout is entry 128 r + c of
  the flat row e. Hence the gate at (e, q, c) is the sigmoid of the gating scalar in column 128 * (run of q) + c.
-/
import proofs.«407570_j9036611190826_2_alg».proof.Proof.RefTerm
import proofs.«407570_j9036611190826_2_alg».proof.Proof.Spec
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.TcCoe Idealize.ShloMosaic.ValueIdx

/-- The host's spelling of the sigmoid is the sigmoid, entry by entry. -/
theorem hostSigmoid_apply (s : Shape) (hb : S_.BroadcastsInDim s (![] : Fin 0 → Fin s.rank)) (v : FVec Ideal s .f32) (i : s.Idx) :
    hostSigmoid (F := Ideal) s hb v i = Ideal.logistic (v i) := by
  -- the scalar word 0x3F800000 spread over the shape reads the extended real 1 at every entry
  have h1 : ∀ j : s.Idx, broadcastInDim s ![] hb (constant (F := Ideal) S_ .f32 0x3F800000#32) j = 1 := by
    intro j
    rw [broadcastInDim_scalar_apply hb, constant_apply, Ideal.ofBits_one_f32]
  -- at entry i the quotient is 1 / (1 + exp (-(v i))), which is the sigmoid's definition
  show Ideal.div (broadcastInDim s ![] hb (constant (F := Ideal) S_ .f32 0x3F800000#32) i)
      (broadcastInDim s ![] hb (constant (F := Ideal) S_ .f32 0x3F800000#32) i + Ideal.exp (-(v i))) = _
  rw [h1 i]; rfl

/-- Row q of the column of start indices is the word of the run of q: the table entry is 0 or 1, not below zero, so the
    wrap by 2 does not apply. -/
private theorem gateTable_apply (q : Fin 8) :
    gateTable (ix2 q (0 : Fin 1)) = BitVec.ofNat 32 (Cert.RotGate.expand q).val := by
  unfold gateTable
  -- the column at (q, 0) is the vector at q
  refine (broadcastInDim_apply _ _ _ (ix2 q (0 : Fin 1)) (ix1 q) (fun a => by match a with | ⟨0, _⟩ => rfl)).trans ?_
  rw [select_apply]
  show Scalar.select (IntOp.cmpi .slt (lit0 (S8.rowMajor (ix1 q))) 0#32) (IntOp.addi (lit0 (S8.rowMajor (ix1 q))) 2#32)
    (lit0 (S8.rowMajor (ix1 q))) = _
  -- the row-major position of a rank-1 index is its coordinate
  have hq : S8.rowMajor (ix1 q) = q := Fin.ext (Shape.rowMajor_val_one _)
  rw [hq]
  -- the eight entries, one by one
  fin_cases q <;> rfl

local notation "dG" => gather_S120000x2x128_S8x1_S120000x8x128_02_1_n_n_1_1_1200001128

/-- The entry of the 120000 x 2 x 128 array the gather reads for (e, q, c): axes 0 and 2 carry e and c as offsets, axis 1
    is collapsed and reads the start index at (q, 0), the run of q, clamped into 0..1. -/
private theorem gate_operandIdx (e : Fin 120000) (q : Fin 8) (c : Fin 128) :
    (dG).operandIdx (ix3 e q c) gateTable = ix3 e (Cert.RotGate.expand q) c := by
  funext a
  refine Fin.ext ?_
  match a with
  | ⟨0, _⟩ =>
    -- axis 0: no start index, no batching; the first offset axis, whose coordinate is e
    show (dG).start (ix3 e q c) gateTable 0 + (dG).batchCoord (ix3 e q c) 0 + (dG).offCoord (ix3 e q c) 0 = e.val
    have hs : (dG).start (ix3 e q c) gateTable 0 = 0 := by
      unfold GatherDims.start
      rw [dif_neg (by decide)]
    have ho : (dG).offCoord (ix3 e q c) 0 = e.val := by
      unfold GatherDims.offCoord
      rw [dif_pos (by decide)]
      rfl
    rw [hs, ho, GatherDims.batchCoord_eq_zero _ _ _ (by decide)]
    omega
  | ⟨1, _⟩ =>
    -- axis 1: collapsed, no batching; the start index read at (q, 0) and clamped into 0..1
    show (dG).start (ix3 e q c) gateTable 1 + (dG).batchCoord (ix3 e q c) 1 + (dG).offCoord (ix3 e q c) 1 = (Cert.RotGate.expand q).val
    rw [GatherDims.batchCoord_eq_zero _ _ _ (by decide), GatherDims.offCoord_eq_zero _ _ _ (by decide)]
    unfold GatherDims.start
    rw [dif_pos (show (1 : Fin 3) ∈ (dG).startIndexMap by decide)]
    have hsi : (dG).siIdx (ix3 e q c) ⟨List.idxOf (1 : Fin 3) (dG).startIndexMap,
        List.idxOf_lt_length_iff.2 (show (1 : Fin 3) ∈ (dG).startIndexMap by decide)⟩ = ix2 q (0 : Fin 1) := by
      funext b; refine Fin.ext ?_
      match b with
      | ⟨0, _⟩ => rfl
      | ⟨1, _⟩ => rfl
    rw [hsi, gateTable_apply]
    -- the word of 0 or of 1, read signed, is 0 or 1, and min with 1 leaves it
    generalize Cert.RotGate.expand q = r
    fin_cases r <;> rfl
  | ⟨2, _⟩ =>
    -- axis 2: no start index, no batching; the second offset axis, whose coordinate is c
    show (dG).start (ix3 e q c) gateTable 2 + (dG).batchCoord (ix3 e q c) 2 + (dG).offCoord (ix3 e q c) 2 = c.val
    have hs : (dG).start (ix3 e q c) gateTable 2 = 0 := by
      unfold GatherDims.start
      rw [dif_neg (by decide)]
    have ho : (dG).offCoord (ix3 e q c) 2 = c.val := by
      unfold GatherDims.offCoord
      rw [dif_pos (by decide)]
      rfl
    rw [hs, ho, GatherDims.batchCoord_eq_zero _ _ _ (by decide)]
    omega

/-- The gate of coefficient q + 1 at channel c of edge e is the sigmoid of the gating scalar in column
    128 * (run of q) + c. -/
theorem gates_apply (g : FVec Ideal S120000x256 .f32) (e : Fin 120000) (q : Fin 8) (c : Fin 128) :
    gates (F := Ideal) g (ix3 e q c) = Ideal.logistic (g (ix2 e (Cert.RotGate.gateCol q c))) := by
  unfold gates Host.gather
  rw [gate_operandIdx]
  -- entry (e, r, c) of the 2 x 128 layout is entry (e, 128 r + c) of the flat rows: the same row-major position
  refine (shapeCast_apply _ _ (ix3 e (Cert.RotGate.expand q) c) (ix2 e (Cert.RotGate.gateCol q c)) ?_).trans ?_
  · rw [Shape.rowMajor_val_two, Shape.rowMajor_val_three]
    show e.val * 256 + (128 * (Cert.RotGate.expand q).val + c.val) = (e.val * 2 + (Cert.RotGate.expand q).val) * 128 + c.val
    omega
  · exact hostSigmoid_apply _ _ _ _

end Cert.ReferenceIdeal.RefValue

end
-- ==== Proof.RefValue.lean ====
/-
  The reference's result after the messages is the edge-wise function `resV` at 120000 edges, index by index.

  The result array joins two pieces along the coefficient axis: coefficient 0, the rotated-back value times its own
  sigmoid, and coefficients 1..8, the rotated-back value times the gate of the coefficient. An index (e, l, c) with
  l = 0 falls in the first piece at (e, 0, c); with l > 0 in the second at (e, l - 1, c). Each piece reads the
  rotated-back array through a slice that starts at coefficient 0 resp. 1, so both read it at (e, l, c), where it is
  the nested sum `back`; the gate at (e, l - 1, c) is the sigmoid of the gating scalar in the column of that coefficient.
-/
import proofs.«407570_j9036611190826_2_alg».proof.Proof.RefTerm
import proofs.«407570_j9036611190826_2_alg».proof.Proof.RefRotated
import proofs.«407570_j9036611190826_2_alg».proof.Proof.RefGates
import proofs.«407570_j9036611190826_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.ShloMosaic.ValueIdx

/-- The rotated-back array read through the slice that keeps coefficient 0. -/
theorem slice0_apply (R : FVec Ideal S120000x9x128 .f32) (e : Fin 120000) (c : Fin 128) :
    extractStridedSlice S120000x1x128 ![0, 0, 0] R slices_S120000x9x128_S120000x1x128_0_0_0 (ix3 e (0 : Fin 1) c)
      = R (ix3 e (0 : Fin 9) c) :=
  extractStridedSlice_apply ![0, 0, 0] R slices_S120000x9x128_S120000x1x128_0_0_0 (ix3 e (0 : Fin 1) c) (ix3 e (0 : Fin 9) c)
    (fun a => by match a with | ⟨0, _⟩ => exact (Nat.zero_add _).symm | ⟨1, _⟩ => rfl | ⟨2, _⟩ => exact (Nat.zero_add _).symm)

/-- The rotated-back array read through the slice that keeps coefficients 1..8: entry q is coefficient q + 1. -/
theorem slice1_apply (R : FVec Ideal S120000x9x128 .f32) (e : Fin 120000) (q : Fin 8) (c : Fin 128) :
    extractStridedSlice S120000x8x128 ![0, 1, 0] R slices_S120000x9x128_S120000x8x128_0_1_0 (ix3 e q c)
      = R (ix3 e (⟨q.val + 1, by have := q.isLt; omega⟩ : Fin 9) c) :=
  extractStridedSlice_apply ![0, 1, 0] R slices_S120000x9x128_S120000x8x128_0_1_0 (ix3 e q c)
    (ix3 e (⟨q.val + 1, by have := q.isLt; omega⟩ : Fin 9) c)
    (fun a => by match a with | ⟨0, _⟩ => exact (Nat.zero_add _).symm | ⟨1, _⟩ => exact Nat.add_comm _ _ | ⟨2, _⟩ => exact (Nat.zero_add _).symm)

/-- The reference's result after the messages is `resV` of the arrays. -/
theorem tail_eq (W Winv : FVec Ideal S120000x9x9 .f32) (g : FVec Ideal S120000x256 .f32) (X : FVec Ideal S120000x9x128 .f32) :
    tail (F := Ideal) W Winv g X = Cert.RotGate.resV 120000 W Winv X g := by
  funext i
  obtain ⟨e, l, c, rfl⟩ : ∃ (e : Fin 120000) (l : Fin 9) (c : Fin 128), i = ix3 e l c := ⟨i 0, i 1, i 2, eq_ix3 i⟩
  rw [Cert.RotGate.resV_ix3]
  unfold tail Cert.RotGate.res
  by_cases hl : l.val = 0
  · rw [dif_pos hl]
    have hl0 : l = (0 : Fin 9) := Fin.ext hl
    subst hl0
    refine (concatenate_pair_apply_left (t := S120000x9x128) (s₁ := S120000x1x128) (s₂ := S120000x8x128) (1 : Fin 3) _ _ concatenates_S120000x1x128_S120000x8x128_S120000x9x128_d1
      (ix3 e (0 : Fin 9) c) rfl (ix3 e (0 : Fin 1) c)
      (fun b => by match b with | ⟨0, _⟩ => rfl | ⟨1, _⟩ => rfl | ⟨2, _⟩ => rfl)).trans ?_
    rw [mulf_apply, hostSigmoid_apply, slice0_apply, rotated_apply]
  · rw [dif_neg hl]
    have hq : l.val - 1 < 8 := by have := l.isLt; omega
    refine (concatenate_pair_apply_right (t := S120000x9x128) (s₁ := S120000x1x128) (s₂ := S120000x8x128) (1 : Fin 3) _ _ concatenates_S120000x1x128_S120000x8x128_S120000x9x128_d1
      (ix3 e l c) rfl rfl (ix3 e (⟨l.val - 1, hq⟩ : Fin 8) c)
      (fun b hb => by
        match b with
        | ⟨0, _⟩ => rfl
        | ⟨1, _⟩ => exact absurd rfl hb
        | ⟨2, _⟩ => rfl)
      (by show l.val - 1 + 1 = l.val; omega)).trans ?_
    rw [mulf_apply, gates_apply, slice1_apply, rotated_apply]
    have e1 : (⟨l.val - 1 + 1, by omega⟩ : Fin 9) = l := Fin.ext (by show l.val - 1 + 1 = l.val; omega)
    rw [e1]

end Cert.ReferenceIdeal.RefValue

end
-- ==== Proof.lean ====
/-
  The rotate / rotate-back / gate kernel against its jnp reference, over the extended reals.

  Both programs gather node features along the edge list (source and target side by side along the channel axis),
  multiply each edge's 9 x 128 message by the edge's 9 x 9 matrix W and then by Winv, and finish coefficient 0 with a SiLU
  and coefficients 1..8 with the sigmoid of the gating scalar of the coefficient's degree. The kernel program does the
  two products and the gating on tiles of 600 edges; the reference on the whole arrays. On the extended reals a change
  of float format is the identity and a matrix product is the plain sum, so both results are one function, `resV`, of
  the matrices, the gating scalars and the edge messages (Proof/Spec.lean): the kernel's by reading what each tile
  writes back and covering the result array with the 200 tiles, the reference's by reading its host operations at an
  index.

  The two programs differ in one place: the kernel program's gather replaces a row whose index is outside 0..19999 by
  not-a-number, the reference's clamps the index. The statement therefore carries, beside the finiteness of the float
  inputs, that every word of the edge list is a node number 0..19999 — outside that range the reference itself indexes
  out of range —, and under it no row is replaced and the messages of the two programs are the same array.
  The finiteness of the float inputs is not used: both sides associate every sum and product the same way.
-/
import proofs.«407570_j9036611190826_2_alg».proof.Defs
import proofs.«407570_j9036611190826_2_alg».proof.Proof.Gen.Kernel
import proofs.«407570_j9036611190826_2_alg».proof.Proof.Gen.Kernel.Frame
import proofs.«407570_j9036611190826_2_alg».proof.Proof.Gen.KernelIdeal
import proofs.«407570_j9036611190826_2_alg».proof.Proof.Gen.KernelIdeal.Frame
import proofs.«407570_j9036611190826_2_alg».proof.Proof.Gen.KernelIdeal.Value
import proofs.«407570_j9036611190826_2_alg».proof.Proof.Gen.ReferenceIdeal
import proofs.«407570_j9036611190826_2_alg».proof.Proof.Gen.Pre_finite_inputs
import proofs.«407570_j9036611190826_2_alg».proof.Proof.PreDecode
import proofs.«407570_j9036611190826_2_alg».proof.Proof.KerMsg
import proofs.«407570_j9036611190826_2_alg».proof.Proof.KerValue
import proofs.«407570_j9036611190826_2_alg».proof.Proof.RefRun
import proofs.«407570_j9036611190826_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel: its run, with the result dropped, is its frame. -/
theorem frame_ri : Cert.frame_ReferenceIdeal := fun m ρ _ =>
  (θ_run Cert.ReferenceIdeal.defs _ _).mono (fun _ h c => (h c).2) (Cert.ReferenceIdeal.RefValue.run (F := Ideal) m ρ)

/-- From memories that agree on the arguments, under the precondition, the two idealized programs end with the same
    result: `resV` of the matrices, the gating scalars and the edge messages, which under the precondition are the same
    array for both. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4⟩ := hagree c
  rw [a0, a1, a2, a3, a4, Cert.ReferenceIdeal.RefValue.tail_eq]
  rw [Cert.KernelIdeal.KerValue.msg_eq_ref _ _ (Cert.Pre_finite_inputs.Decode.edge_in_range _ _ _ _ _ (hpre c))]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
